-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x3 : Shape := ⟨3, ![16, 8192, 3]⟩
abbrev S16x2048x3 : Shape := ⟨3, ![16, 2048, 3]⟩
abbrev S_ : Shape := ⟨0, ![]⟩

class Facts : Prop where
  bcast_S_S16x8192x3 : S_.BroadcastsInDim S16x8192x3 (![] : Fin 0 → Fin S16x8192x3.rank)
  reducesTo_S16x8192x3_S_d0_1_2 : S16x8192x3.ReducesTo [0, 1, 2] S_
  h_S_ : 0 < S_.numel
  bcast_S_S16x2048x3 : S_.BroadcastsInDim S16x2048x3 (![] : Fin 0 → Fin S16x2048x3.rank)
  reducesTo_S16x2048x3_S_d0_1_2 : S16x2048x3.ReducesTo [0, 1, 2] S_

variable [Facts]

def fn {F : FTy → Type} [FloatOps F] (main_arg0 : FVec F S16x8192x3 .f32) (main_arg1 : FVec F S16x2048x3 .f32) : IVec S_ 1 :=
  let main_v0 : FVec F S16x8192x3 .f32 := Host.absf main_arg0
  let main_cst : FVec F S_ .f32 := constant S_ .f32 0x7F800000#32
  let main_v1 : FVec F S16x8192x3 .f32 := broadcastInDim S16x8192x3 ![] bcast_S_S16x8192x3 main_cst
  let main_v2 : IVec S16x8192x3 1 := cmpf .olt main_v0 main_v1
  let main_c : IVec S_ 1 := constantI S_ 1 1#1
  let main_v3 : IVec S_ 1 := (fun x v => Host.reduce IntOp.andi x v reducesTo_S16x8192x3_S_d0_1_2 h_S_) main_v2 main_c
  let main_v4 : FVec F S16x2048x3 .f32 := Host.absf main_arg1
  let main_cst_0 : FVec F S_ .f32 := constant S_ .f32 0x7F800000#32
  let main_v5 : FVec F S16x2048x3 .f32 := broadcastInDim S16x2048x3 ![] bcast_S_S16x2048x3 main_cst_0
  let main_v6 : IVec S16x2048x3 1 := cmpf .olt main_v4 main_v5
  let main_c_1 : IVec S_ 1 := constantI S_ 1 1#1
  let main_v7 : IVec S_ 1 := (fun x v => Host.reduce IntOp.andi x v reducesTo_S16x2048x3_S_d0_1_2 h_S_) main_v6 main_c_1
  let main_v8 : IVec S_ 1 := andi main_v3 main_v7
  main_v8
-- ==== Kernel.lean ====
abbrev S16x8192x3 : Shape := ⟨3, ![16, 8192, 3]⟩
abbrev S16x2048x3 : Shape := ⟨3, ![16, 2048, 3]⟩
abbrev S16x3x8192 : Shape := ⟨3, ![16, 3, 8192]⟩
abbrev S16x2048 : Shape := ⟨2, ![16, 2048]⟩
abbrev S16x8192 : Shape := ⟨2, ![16, 8192]⟩
abbrev S8x2048x3 : Shape := ⟨3, ![8, 2048, 3]⟩
abbrev S8x3x128 : Shape := ⟨3, ![8, 3, 128]⟩
abbrev S8x2048 : Shape := ⟨2, ![8, 2048]⟩
abbrev S8x128 : Shape := ⟨2, ![8, 128]⟩
abbrev S8x2048x1 : Shape := ⟨3, ![8, 2048, 1]⟩
abbrev S8x1x128 : Shape := ⟨3, ![8, 1, 128]⟩
abbrev S8x2048x128 : Shape := ⟨3, ![8, 2048, 128]⟩
abbrev S_ : Shape := ⟨0, ![]⟩
abbrev S16 : Shape := ⟨1, ![16]⟩

abbrev nBuf : Space → Nat
  | .hbm => 32
  | .vmem => 8
  | .smem => 0
  | _ => 0

abbrev bufTy : (tb : Table) → Fin (tcTables nBuf tb) → BufTy
  | .hbm, ⟨0, _⟩ => ⟨S16x8192x3, .f32⟩
  | .hbm, ⟨1, _⟩ => ⟨S16x2048x3, .f32⟩
  | .hbm, ⟨2, _⟩ => ⟨S16x3x8192, .f32⟩
  | .hbm, ⟨3, _⟩ => ⟨S16x2048, .f32⟩
  | .hbm, ⟨4, _⟩ => ⟨S16x8192, .f32⟩
  | .hbm, ⟨5, _⟩ => ⟨S16x2048, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16x8192, .f32⟩
  | .hbm, ⟨12, _⟩ => ⟨S_, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S16, .f32⟩
  | .local _ .vmem, ⟨0, _⟩ => ⟨S8x2048x3, .f32⟩
  | .local _ .vmem, ⟨1, _⟩ => ⟨S8x3x128, .f32⟩
  | .local _ .vmem, ⟨2, _⟩ => ⟨S8x3x128, .f32⟩
  | .local _ .vmem, ⟨3, _⟩ => ⟨S8x2048, .f32⟩
  | .local _ .vmem, ⟨4, _⟩ => ⟨S8x2048, .f32⟩
  | .local _ .vmem, ⟨5, _⟩ => ⟨S8x128, .f32⟩
  | .local _ .vmem, ⟨6, _⟩ => ⟨S8x128, .f32⟩
  | .local _ .vmem, ⟨7, _⟩ => ⟨S8x2048, .f32⟩
  | _, _ => ⟨S16x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_cst_7 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v45 : BitVec 1 := Scalar.cmpi .eq arg1 c63_i32
  let v46 : BitVec 32 := Scalar.extui v45
  let c0_i32_17 : BitVec 32 := 0#32
  let v47 : BitVec 1 := Scalar.cmpi .ne v46 c0_i32_17
  v47

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x2048x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S8x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S16x8192x3_S16x3x8192_0_2_1 : S16x8192x3.Transposes [0, 2, 1] S16x3x8192
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S8x2048x3_S8x2048x3_0_0_0 : ∀ a, (![0, 0, 0] : Fin 3 → Nat) a + S8x2048x3.size a ≤ S8x2048x3.size a
  h_S8x2048x3 : 0 < S8x2048x3.numel
  inb_S8x3x128_S8x3x128_0_0_0 : ∀ a, (![0, 0, 0] : Fin 3 → Nat) a + S8x3x128.size a ≤ S8x3x128.size a
  h_S8x3x128 : 0 < S8x3x128.numel
  shapeCasts_S8x3x128_S8x3x128 : S8x3x128.ShapeCasts S8x3x128
  reduces_S8x2048x3_S8x2048 : S8x2048x3.Reduces [2] S8x2048
  reduces_S8x3x128_S8x128 : S8x3x128.Reduces [1] S8x128
  slices_S8x2048x3_o0_0_0_S8x2048x1 : S8x2048x3.Slices ![0, 0, 0] S8x2048x1
  slices_S8x3x128_o0_0_0_S8x1x128 : S8x3x128.Slices ![0, 0, 0] S8x1x128
  broadcasts_S8x2048x1_S8x2048x128 : S8x2048x1.Broadcasts S8x2048x128
  broadcasts_S8x1x128_S8x2048x128 : S8x1x128.Broadcasts S8x2048x128
  slices_S8x2048x3_o0_0_1_S8x2048x1 : S8x2048x3.Slices ![0, 0, 1] S8x2048x1
  slices_S8x3x128_o0_1_0_S8x1x128 : S8x3x128.Slices ![0, 1, 0] S8x1x128
  slices_S8x2048x3_o0_0_2_S8x2048x1 : S8x2048x3.Slices ![0, 0, 2] S8x2048x1
  slices_S8x3x128_o0_2_0_S8x1x128 : S8x3x128.Slices ![0, 2, 0] S8x1x128
  shapeCasts_S8x2048_S8x2048x1 : S8x2048.ShapeCasts S8x2048x1
  shapeCasts_S8x128_S8x1x128 : S8x128.ShapeCasts S8x1x128
  reduces_S8x2048x128_S8x2048 : S8x2048x128.Reduces [2] S8x2048
  reduces_S8x2048x128_S8x128 : S8x2048x128.Reduces [1] S8x128
  inb_S8x128_S8x128_0_0 : ∀ a, (![0, 0] : Fin 2 → Nat) a + S8x128.size a ≤ S8x128.size a
  h_S8x128 : 0 < S8x128.numel
  reducesTo_S16x2048_S16_d1 : S16x2048.ReducesTo [1] S16
  h_S_ : 0 < S_.numel
  bcast_S_S16 : S_.BroadcastsInDim S16 (![] : Fin 0 → Fin S16.rank)
  reducesTo_S16x8192_S16_d1 : S16x8192.ReducesTo [1] S16
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x2048x3.size a ≤ S16x2048x3.size a
  hwx0_0 : ∀ i : grid0.Coords, EltTy.bits .f32 = 32 ∨ (Rect.block (s := S16x2048x3) S8x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x128.size a ≤ S16x3x8192.size a
  hwx0_1 : ∀ i : grid0.Coords, EltTy.bits .f32 = 32 ∨ (Rect.block (s := S16x3x8192) S8x3x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S16x2048.size a
  hwx0_2 : ∀ i : grid0.Coords, EltTy.bits .f32 = 32 ∨ (Rect.block (s := S16x2048) S8x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x8192.size a
  hwx0_3 : ∀ i : grid0.Coords, EltTy.bits .f32 = 32 ∨ (Rect.block (s := S16x8192) S8x128.size (cc0_transform_3 i) (hinb0_3 i)).WholeWords (EltTy.packing .f32)

variable [Facts₀]

abbrev win0_0 : Pipeline.Window sig grid0 :=
  Pipeline.Window.ofSpec (Memref.whole main_arg1) S8x2048x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x3x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S8x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S16x8192x3 : Shape := ⟨3, ![16, 8192, 3]⟩
abbrev S16x2048x3 : Shape := ⟨3, ![16, 2048, 3]⟩
abbrev S_ : Shape := ⟨0, ![]⟩
abbrev S16x2048 : Shape := ⟨2, ![16, 2048]⟩
abbrev S16x8192 : Shape := ⟨2, ![16, 8192]⟩
abbrev S16x2048x8192 : Shape := ⟨3, ![16, 2048, 8192]⟩
abbrev S16x2048x1 : Shape := ⟨3, ![16, 2048, 1]⟩
abbrev S16x1x8192 : Shape := ⟨3, ![16, 1, 8192]⟩
abbrev S16 : Shape := ⟨1, ![16]⟩

abbrev nBuf : Space → Nat
  | .hbm => 52
  | .vmem => 0
  | .smem => 0
  | _ => 0

abbrev bufTy : (tb : Table) → Fin (tcTables nBuf tb) → BufTy
  | .hbm, ⟨0, _⟩ => ⟨S16x8192x3, .f32⟩
  | .hbm, ⟨1, _⟩ => ⟨S16x2048x3, .f32⟩
  | .hbm, ⟨2, _⟩ => ⟨S16x2048x3, .f32⟩
  | .hbm, ⟨3, _⟩ => ⟨S_, .f32⟩
  | .hbm, ⟨4, _⟩ => ⟨S16x2048, .f32⟩
  | .hbm, ⟨5, _⟩ => ⟨S16x8192x3, .f32⟩
  | .hbm, ⟨6, _⟩ => ⟨S_, .f32⟩
  | .hbm, ⟨7, _⟩ => ⟨S16x8192, .f32⟩
  | .hbm, ⟨8, _⟩ => ⟨S16x2048x8192, .f32⟩
  | .hbm, ⟨9, _⟩ => ⟨S16x2048x1, .f32⟩
  | .hbm, ⟨10, _⟩ => ⟨S16x1x8192, .f32⟩
  | .hbm, ⟨11, _⟩ => ⟨S16x2048x8192, .f32⟩
  | .hbm, ⟨12, _⟩ => ⟨S16x2048x8192, .f32⟩
  | .hbm, ⟨13, _⟩ => ⟨S16x2048x8192, .f32⟩
  | .hbm, ⟨14, _⟩ => ⟨S_, .f32⟩
  | .hbm, ⟨15, _⟩ => ⟨S16x2048x8192, .f32⟩
  | .hbm, ⟨16, _⟩ => ⟨S16x2048x8192, .f32⟩
  | .hbm, ⟨17, _⟩ => ⟨S16x2048x8192, .f32⟩
  | .hbm, ⟨18, _⟩ => ⟨S_, .f32⟩
  | .hbm, ⟨19, _⟩ => ⟨S16x2048x8192, .f32⟩
  | .hbm, ⟨20, _⟩ => ⟨S16x2048x8192, .f32⟩
  | .hbm, ⟨21, _⟩ => ⟨S_, .f32⟩
  | .hbm, ⟨22, _⟩ => ⟨S16x2048, .f32⟩
  | .hbm, ⟨23, _⟩ => ⟨S_, .f32⟩
  | .hbm, ⟨24, _⟩ => ⟨S16x8192, .f32⟩
  | .hbm, ⟨25, _⟩ => ⟨S16x2048, .f32⟩
  | .hbm, ⟨26, _⟩ => ⟨S_, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S16x8192, .f32⟩
  | .hbm, ⟨32, _⟩ => ⟨S_, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S16, .f32⟩
  | _, _ => ⟨S16x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_v27 : Ref sig .tc := ⟨.hbm, 40, rfl⟩
abbrev main_cst_10 : Ref sig .tc := ⟨.hbm, 41, rfl⟩
abbrev main_v28 : Ref sig .tc := ⟨.hbm, 42, rfl⟩
abbrev main_cst_11 : Ref sig .tc := ⟨.hbm, 43, rfl⟩
abbrev main_v29 : Ref sig .tc := ⟨.hbm, 44, rfl⟩
abbrev main_v30 : Ref sig .tc := ⟨.hbm, 45, rfl⟩
abbrev main_cst_12 : Ref sig .tc := ⟨.hbm, 46, rfl⟩
abbrev main_v31 : Ref sig .tc := ⟨.hbm, 47, rfl⟩
abbrev main_cst_13 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  reducesTo_S16x2048x3_S16x2048_d2 : S16x2048x3.ReducesTo [2] S16x2048
  h_S_ : 0 < S_.numel
  reducesTo_S16x8192x3_S16x8192_d2 : S16x8192x3.ReducesTo [2] S16x8192
  bcast_S16x2048_S16x2048x1_0_1 : S16x2048.BroadcastsInDim S16x2048x1 (![0, 1] : Fin 2 → Fin S16x2048x1.rank)
  bcast_S16x8192_S16x1x8192_0_2 : S16x8192.BroadcastsInDim S16x1x8192 (![0, 2] : Fin 2 → Fin S16x1x8192.rank)
  bcast_S16x2048x1_S16x2048x8192_0_1_2 : S16x2048x1.BroadcastsInDim S16x2048x8192 (![0, 1, 2] : Fin 3 → Fin S16x2048x8192.rank)
  bcast_S16x1x8192_S16x2048x8192_0_1_2 : S16x1x8192.BroadcastsInDim S16x2048x8192 (![0, 1, 2] : Fin 3 → Fin S16x2048x8192.rank)
  bcast_S_S16x2048x8192 : S_.BroadcastsInDim S16x2048x8192 (![] : Fin 0 → Fin S16x2048x8192.rank)
  reducesTo_S16x2048x8192_S16x2048_d2 : S16x2048x8192.ReducesTo [2] S16x2048
  reducesTo_S16x2048x8192_S16x8192_d1 : S16x2048x8192.ReducesTo [1] S16x8192
  reducesTo_S16x2048_S16_d1 : S16x2048.ReducesTo [1] S16
  bcast_S_S16 : S_.BroadcastsInDim S16 (![] : Fin 0 → Fin S16.rank)
  reducesTo_S16x8192_S16_d1 : S16x8192.ReducesTo [1] S16
  dot_S16x2048x3_S16x8192x3_S16x2048x8192_2_2_1_1_0_0_wf : DotDims.WF S16x2048x3 S16x8192x3 S16x2048x8192 [2] [2] [1] [1] [0] [0]

variable [Facts₀]

def dot_S16x2048x3_S16x8192x3_S16x2048x8192_2_2_1_1_0_0 : DotDims S16x2048x3 S16x8192x3 S16x2048x8192 where
  lhsContracting := [2]
  rhsContracting := [2]
  lhsNonContracting := [1]
  rhsNonContracting := [1]
  lhsBatch := [0]
  rhsBatch := [0]
  wf := dot_S16x2048x3_S16x8192x3_S16x2048x8192_2_2_1_1_0_0_wf

class Facts : Prop extends Facts₀ where

variable [Facts]
-- ==== Proof.LibBlockMin.lean ====
/-
  A minimum over a finite index set, taken block by block.

  In a complete linear order, the fold of `min` from the top element over every index of a finite type is the infimum
  of the family (`fold_min_top_eq_iInf`). For a family `f` over `Fin N` cut into consecutive blocks of `S` indices,
  `pre S f j` is the infimum over the first `S * j` indices and `tile S f j` the infimum over block `j`; the running
  minimum obeys `pre S f 0 = ⊤`, `pre S f (j + 1) = min (pre S f j) (tile S f j)`, and once the blocks exhaust the
  index set it is the infimum over all of it (`pre_all`). Any sizes.
-/
import Mathlib.Data.Finset.Fold
import Mathlib.Order.CompleteLattice.Basic
import Mathlib.Order.CompleteLattice.Finset

namespace BlockMin

variable {α : Type*} [CompleteLinearOrder α]

/-- The fold of `min` from `⊤` over all indices of a finite type is the infimum of the family. -/
theorem fold_min_top_eq_iInf {ι : Type*} [Fintype ι] (g : ι → α) :
    (Finset.univ : Finset ι).fold min ⊤ g = ⨅ k, g k := by
  apply le_antisymm
  · exact le_iInf fun k => (Finset.fold_min_le _).mpr (Or.inr ⟨k, Finset.mem_univ k, le_rfl⟩)
  · exact (Finset.le_fold_min _).mpr ⟨le_top, fun x _ => iInf_le g x⟩

/-- The infimum of `f` over the indices below `S * j`: the first `j` blocks of `S`. -/
def pre {N : ℕ} (S : ℕ) (f : Fin N → α) (j : ℕ) : α := ⨅ (n : Fin N) (_ : n.val < S * j), f n

/-- The infimum of `f` over block `j`: the indices `S * j + k`, `k < S`. -/
def tile {N : ℕ} (S : ℕ) (f : Fin N → α) (j : ℕ) (hj : S * (j + 1) ≤ N) : α :=
  ⨅ k : Fin S, f ⟨S * j + k.val, by have := k.isLt; rw [Nat.mul_succ] at hj; omega⟩

/-- No block yet: the empty infimum. -/
theorem pre_zero {N : ℕ} (S : ℕ) (f : Fin N → α) : pre S f 0 = ⊤ := by
  unfold pre
  refine le_antisymm le_top (le_iInf₂ fun n hn => ?_)
  rw [Nat.mul_zero] at hn
  exact absurd hn (Nat.not_lt_zero _)

/-- One more block: the minimum of what the earlier blocks gave and this block's infimum. -/
theorem pre_succ {N : ℕ} (S : ℕ) (f : Fin N → α) (j : ℕ) (hj : S * (j + 1) ≤ N) :
    pre S f (j + 1) = min (pre S f j) (tile S f j hj) := by
  have hS : S * (j + 1) = S * j + S := Nat.mul_succ S j
  apply le_antisymm
  · refine le_min (le_iInf₂ fun n hn => iInf₂_le n (by omega)) (le_iInf fun k => ?_)
    have := k.isLt
    exact iInf₂_le (⟨S * j + k.val, by omega⟩ : Fin N) (by show S * j + k.val < S * (j + 1); omega)
  · refine le_iInf₂ fun n hn => ?_
    by_cases h : n.val < S * j
    · exact (min_le_left _ _).trans (iInf₂_le n h)
    · refine (min_le_right _ _).trans ?_
      have hk : n.val - S * j < S := by omega
      refine (iInf_le _ (⟨n.val - S * j, hk⟩ : Fin S)).trans (le_of_eq ?_)
      exact congrArg f (Fin.ext (by show S * j + (n.val - S * j) = n.val; omega))

/-- When the first `j` blocks are the whole index set, their infimum is the infimum over every index. -/
theorem pre_all {N : ℕ} (S : ℕ) (f : Fin N → α) (j : ℕ) (hj : N ≤ S * j) : pre S f j = ⨅ n, f n := by
  unfold pre
  exact iInf_congr fun n => iInf_pos (lt_of_lt_of_le n.isLt hj)

end BlockMin
-- ==== Proof.Spec.lean ====
/-
  The squared nearest-neighbour distances between two point clouds, as functions of the two argument arrays.

  `X` holds 16 batches of 2048 sample points and `Y` 16 batches of 8192 reference points, three coordinates each,
  as extended reals. For batch `b`, sample point `n` and reference point `k` the squared distance is written the way both
  programs compute it: `|x|² + |y|² - 2·(x·y)`, floored at zero (`dist`). `near1` is, per sample point, the least
  such distance over all reference points, `near2`, per reference point, the least over all sample points. The least
  over the 8192 reference points taken 128 at a time is `BlockMin.pre 128` of the same family.
-/
import Idealize.ShloMosaic.PureOps.Ideal
import Idealize.ShloMosaic.Lib.ValueIdx
import proofs.«179977_j28621662060808_1_alg».proof.Proof.LibBlockMin

noncomputable section

namespace Chamfer

open Idealize.ShloMosaic Idealize.ShloMosaic.ValueIdx

/-- The sample points: 16 batches of 2048 points of three coordinates. -/
abbrev SX : Shape := ⟨3, ![16, 2048, 3]⟩
/-- The reference points: 16 batches of 8192 points of three coordinates. -/
abbrev SY : Shape := ⟨3, ![16, 8192, 3]⟩
/-- One value per sample point. -/
abbrev S1 : Shape := ⟨2, ![16, 2048]⟩
/-- One value per reference point. -/
abbrev S2 : Shape := ⟨2, ![16, 8192]⟩

/-- The f32 words of `2.0` and of `0.0`, read as extended reals. -/
abbrev two : EReal := Ideal.ofBits .f32 0x40000000#32
abbrev zero : EReal := Ideal.ofBits .f32 0x00000000#32

/-- The squared norm of sample point `(b, n)`. -/
def sqX (X : SX.Idx → EReal) (b : Fin 16) (n : Fin 2048) : EReal := ∑ d : Fin 3, X (ix3 b n d) * X (ix3 b n d)
/-- The squared norm of reference point `(b, k)`. -/
def sqY (Y : SY.Idx → EReal) (b : Fin 16) (k : Fin 8192) : EReal := ∑ d : Fin 3, Y (ix3 b k d) * Y (ix3 b k d)
/-- The inner product of sample point `(b, n)` and reference point `(b, k)`. -/
def dot (X : SX.Idx → EReal) (Y : SY.Idx → EReal) (b : Fin 16) (n : Fin 2048) (k : Fin 8192) : EReal :=
  ∑ d : Fin 3, X (ix3 b n d) * Y (ix3 b k d)
/-- Their squared distance, `|x|² + |y|² - 2·(x·y)` floored at zero. -/
def dist (X : SX.Idx → EReal) (Y : SY.Idx → EReal) (b : Fin 16) (n : Fin 2048) (k : Fin 8192) : EReal :=
  max ((sqX X b n + sqY Y b k) - two * dot X Y b n k) zero

/-- For each sample point, the least squared distance to a reference point of its batch. -/
def near1 (X : SX.Idx → EReal) (Y : SY.Idx → EReal) : S1.Idx → EReal :=
  fun i => ⨅ k : Fin 8192, dist X Y (i 0) (i 1) k
/-- For each reference point, the least squared distance to a sample point of its batch. -/
def near2 (X : SX.Idx → EReal) (Y : SY.Idx → EReal) : S2.Idx → EReal :=
  fun i => ⨅ n : Fin 2048, dist X Y (i 0) n (i 1)

/-- The least squared distance from sample point `(b, n)` to the first `128 * j` reference points of its batch. -/
def run1 (X : SX.Idx → EReal) (Y : SY.Idx → EReal) (b : Fin 16) (n : Fin 2048) (j : ℕ) : EReal :=
  BlockMin.pre 128 (fun k : Fin 8192 => dist X Y b n k) j

/-- Before any reference point has been seen the running minimum is `⊤`. -/
theorem run1_zero (X : SX.Idx → EReal) (Y : SY.Idx → EReal) (b : Fin 16) (n : Fin 2048) : run1 X Y b n 0 = ⊤ :=
  BlockMin.pre_zero _ _

/-- One more block of 128 reference points: the minimum of the running minimum and the block's least distance. -/
theorem run1_succ (X : SX.Idx → EReal) (Y : SY.Idx → EReal) (b : Fin 16) (n : Fin 2048) (j : ℕ) (hj : j < 64) :
    run1 X Y b n (j + 1)
      = min (run1 X Y b n j) (⨅ l : Fin 128, dist X Y b n ⟨128 * j + l.val, by have := l.isLt; omega⟩) :=
  BlockMin.pre_succ 128 _ j (by omega)

/-- After all 64 blocks the running minimum is the least distance over every reference point. -/
theorem run1_all (X : SX.Idx → EReal) (Y : SY.Idx → EReal) (i : S1.Idx) : run1 X Y (i 0) (i 1) 64 = near1 X Y i :=
  BlockMin.pre_all 128 _ 64 (by decide)

end Chamfer

end
-- ==== Proof.LibSqrtMin.lean ====
/-
  The square root and the minimum on the extended reals, as the ideal float values read them.

  `Ideal.sqrt` sends `⊥` and the negative reals to `⊥`, a real `r ≥ 0` to `√r` and `⊤` to `⊤`: it is monotone on all
  of the extended reals (`sqrt_mono`), so it commutes with `min` (`sqrt_min`) and, since `√⊤ = ⊤`, with the infimum
  of any finite family (`sqrt_iInf`): the square root of the least squared distance is the least distance. The f32
  pattern `0x7F800000` is `⊤` (`ofBits_inf_f32`). A `vector.multi_reduction <minimumf>` over ONE axis from that pattern, and
  the host's one-operand `stablehlo.reduce` with a `minimum` body over one axis from it, read at a result index, are the
  infimum over that axis's coordinates (`multiReduction_minimumf_single`, `hostReduce_minimumf_single`). Any shapes.
-/
import Idealize.ShloMosaic.PureOps.Ideal
import Idealize.ShloMosaic.PureOps.Ideal.Laws
import Idealize.ShloMosaic.PureOps.Reduce
import proofs.«179977_j28621662060808_1_alg».proof.Proof.LibBlockMin

noncomputable section

namespace SqrtMin

open Idealize.ShloMosaic

/-- The ideal square root is monotone on the whole extended real line. -/
theorem sqrt_mono : Monotone Ideal.sqrt := by
  intro x y h
  induction x using EReal.rec with
  | bot => exact bot_le
  | top =>
    obtain rfl : y = ⊤ := top_le_iff.mp h
    exact le_rfl
  | coe a =>
    induction y using EReal.rec with
    | bot => exact absurd h (by simp)
    | top => exact le_top
    | coe b =>
      have hab : a ≤ b := EReal.coe_le_coe_iff.mp h
      rw [Ideal.sqrt_coe, Ideal.sqrt_coe]
      by_cases ha : a < 0
      · rw [if_pos ha]; exact bot_le
      · rw [if_neg ha, if_neg (by linarith)]
        exact EReal.coe_le_coe_iff.mpr (Real.sqrt_le_sqrt hab)

/-- So it commutes with the minimum of two values, -/
theorem sqrt_min (x y : EReal) : Ideal.sqrt (min x y) = min (Ideal.sqrt x) (Ideal.sqrt y) := sqrt_mono.map_min

/-- and with the infimum of a finite family (the empty one included: `√⊤ = ⊤`). -/
theorem sqrt_iInf {ι : Type*} [Fintype ι] (g : ι → EReal) : Ideal.sqrt (⨅ k, g k) = ⨅ k, Ideal.sqrt (g k) := by
  rw [← BlockMin.fold_min_top_eq_iInf, ← BlockMin.fold_min_top_eq_iInf]
  have h := Finset.fold_hom (op := min) (op' := min) (s := (Finset.univ : Finset ι)) (b := (⊤ : EReal)) (f := g)
    (m := Ideal.sqrt) sqrt_min
  rw [← h, Ideal.sqrt_top]

/-- The f32 pattern of `+∞` is the top extended real. -/
theorem ofBits_inf_f32 : Ideal.ofBits .f32 0x7F800000#32 = ⊤ := by simp [Ideal.ofBits, Ideal.ieee]

variable {φ : FTy}

/-- A float `vector.multi_reduction <minimumf>` over one axis, read at `Ideal`: the fold of `min` from the accumulator's
    value over that axis's coordinates. -/
theorem multiReduction_minimumf_fold {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- From the f32 pattern of `+∞`: the infimum over that axis's coordinates. -/
theorem multiReduction_minimumf_single {s t : Shape} {a : Fin s.rank} (src : FVec Ideal s .f32)
    (h : s.Reduces [a] t) (hφ : FKind.Formats .f32) (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_fold]
  show (Finset.univ : Finset (Fin (s.size a))).fold min (Ideal.ofBits .f32 0x7F800000#32) (src ∘ h.lift j) = _
  rw [ofBits_inf_f32]
  exact BlockMin.fold_min_top_eq_iInf _

/-- The host's one-operand `stablehlo.reduce` with a `minimum` body over one axis, from an initial value that is `⊤`:
    the infimum over that axis's coordinates. -/
theorem hostReduce_minimumf_single {s t u : Shape} {a : Fin s.rank} (x : s.Idx → EReal) (init : u.Idx → EReal)
    (h' : s.ReducesTo [a] t) (h : s.Reduces [a] t) (hu : 0 < u.numel) (hinit : init (Shape.Idx.first hu) = ⊤) (j : t.Idx) :
    Host.reduce (FloatOps.minimumf (F := Ideal) (φ := .f32)) x init h' hu j = ⨅ k : Fin (s.size a), x (h.lift j k) := by
  rw [Host.reduce_eq_fold_single (FloatOps.minimumf (F := Ideal) (φ := .f32)) x init h' h hu j, hinit]
  exact BlockMin.fold_min_top_eq_iInf _

end SqrtMin

end
-- ==== Proof.LibKeepdims.lean ====
/-
  Layout operations read at an index by coordinates, for the shapes a row reduction with its reduced axis kept
  produces: an `[a, b]` array given a trailing unit axis, an `[a, b, 1]` array broadcast along that axis to
  `[a, b, c]` (the two together: every entry of row `(i, j)` reads the row's one value), and a `[1, a, b]` array
  broadcast along its leading axis to `[m, a, b]` (every member reads the one matrix). Any sizes, any element type.
-/
import Idealize.ShloMosaic.Lib.ValueIdx
import Idealize.ShloMosaic.Lib.Pipeline.Value

namespace Cert.LibKeepdims

open Idealize.ShloMosaic Idealize.ShloMosaic.ValueIdx

variable {α : Type}

/-- An `[a, b]` array cast to `[a, b, 1]` reads, at `(i, j, u)`, the operand at `(i, j)`: a trailing unit axis does
    not move the row-major position. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` array broadcast along its last axis to `[a, b, c]` reads, at `(i, j, k)`, the operand at
    `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The two together, the column a reduction over the last axis keeps: every entry `(i, j, k)` of the broadcast reads
    the `[a, b]` array at `(i, j)`. -/
theorem keptColumn_apply {a b c : ℕ} (x : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x h1) h2 (ix3 i j k) = x (ix2 i j) :=
  (broadcastTo_ab1_abc_apply _ h2 i j k).trans (shapeCast_ab_ab1_apply x h1 i j 0)

/-- A `[1, a, b]` array broadcast along its leading axis to `[m, a, b]` reads, at `(p, i, j)`, the operand's one
    matrix at `(i, j)`. -/
theorem broadcastTo_1ab_mab_apply {m a b : ℕ} (v : (⟨3, ![1, a, b]⟩ : Shape).Idx → α)
    (h : (⟨3, ![1, a, b]⟩ : Shape).Broadcasts ⟨3, ![m, a, b]⟩) (p : Fin m) (i : Fin a) (j : Fin b) :
    broadcastTo ⟨3, ![m, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

end Cert.LibKeepdims
-- ==== Proof.LibKeepRow.lean ====
/-
  The row a reduction over the MIDDLE axis keeps, read at an index.

  `x[:, None, :]` followed by a broadcast along the new axis: an `[a, c]` array cast to `[a, 1, c]` reads, at `(i, u, k)`, the
  operand at `(i, k)` (`shapeCast_ac_a1c_apply`: a unit axis in the middle does not move the row-major position); an
  `[a, 1, c]` array broadcast along its middle axis to `[a, b, c]` reads, at `(i, j, k)`, the operand at `(i, 0, k)`
  (`broadcastTo_a1c_abc_apply`); the two together read the `[a, c]` array at `(i, k)` (`keptRow_apply`). Any sizes and
  element type. (The trailing-axis forms `[a, b] → [a, b, 1] → [a, b, c]` are the companion file's.)
-/
import Idealize.ShloMosaic.Lib.ValueIdx
import Idealize.ShloMosaic.Lib.Pipeline.Value

namespace Cert.LibKeepRow

open Idealize.ShloMosaic Idealize.ShloMosaic.ValueIdx

/-- An `[a, c]` array cast to `[a, 1, c]` reads, at `(i, u, k)`, the operand at `(i, k)`: a unit axis in the middle
    does not move the row-major position. -/
theorem shapeCast_ac_a1c_apply {α : Type} {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An `[a, 1, c]` array broadcast along its middle axis to `[a, b, c]` reads, at `(i, j, k)`, the operand at
    `(i, 0, k)`. -/
theorem broadcastTo_a1c_abc_apply {α : Type} {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- The two together, the row a reduction over the middle axis keeps: every entry `(i, j, k)` of the broadcast reads
    the `[a, c]` array at `(i, k)`. -/
theorem keptRow_apply {α : Type} {a b c : ℕ} (x : (⟨2, ![a, c]⟩ : Shape).Idx → α)
    (h1 : (⟨2, ![a, c]⟩ : Shape).ShapeCasts ⟨3, ![a, 1, c]⟩)
    (h2 : (⟨3, ![a, 1, c]⟩ : Shape).Broadcasts ⟨3, ![a, b, c]⟩) (i : Fin a) (j : Fin b) (k : Fin c) :
    broadcastTo ⟨3, ![a, b, c]⟩ (shapeCast ⟨3, ![a, 1, c]⟩ x h1) h2 (ix3 i j k) = x (ix2 i k) :=
  (broadcastTo_a1c_abc_apply _ h2 i j k).trans (shapeCast_ac_a1c_apply x h1 i 0 k)

end Cert.LibKeepRow
-- ==== Proof.Payload.lean ====
/-
  The body's arithmetic read at an index, over the extended reals.

  For a block `x` of 8 batches of 2048 sample points and a block `y` of 8 batches of three coordinate rows of 128 reference
  points, `tdist x y b n l` is the squared distance `|x|² + |y|² - 2·(x·y)` floored at zero between sample point `(b, n)`
  and reference point `(b, l)` of the tile. The body's distance tile holds it at `(b, n, l)`; the fold into the running
  minimum takes, per sample point, the least over the tile's 128 reference points; the column output takes, per reference
  point, the least over all 2048 sample points; the reset value is `⊤`.
-/
import proofs.«179977_j28621662060808_1_alg».proof.Proof.Gen.KernelIdeal.Skeleton
import proofs.«179977_j28621662060808_1_alg».proof.Proof.Spec
import proofs.«179977_j28621662060808_1_alg».proof.Proof.LibSqrtMin
import proofs.«179977_j28621662060808_1_alg».proof.Proof.LibKeepdims
import proofs.«179977_j28621662060808_1_alg».proof.Proof.LibKeepRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Idealize.ShloMosaic Idealize.ShloMosaic.ValueIdx
open Cert.KernelIdeal Cert.KernelIdeal.Gen
open Cert.LibKeepRow

/-- The squared distance between sample point `(b, n)` of `x` and reference point `(b, l)` of the tile `y`, floored at zero. -/
def tdist (x : Vec Ideal S8x2048x3 .f32) (y : Vec Ideal S8x3x128 .f32) (b : Fin 8) (n : Fin 2048) (l : Fin 128) : EReal :=
  max (((∑ d : Fin 3, x (ix3 b n d) * x (ix3 b n d)) + (∑ d : Fin 3, y (ix3 b d l) * y (ix3 b d l)))
    - Chamfer.two * (∑ d : Fin 3, x (ix3 b n d) * y (ix3 b d l))) Chamfer.zero

/-! ### The pieces of the distance tile -/

/-- The index a sum over the last axis of an `[8, 2048, 3]` block inserts. -/
private theorem lift_x (b : Fin 8) (n : Fin 2048) (d : Fin 3) :
    reduces_S8x2048x3_S8x2048.lift (ix2 b n) d = ix3 b n d :=
  funext fun c => Fin.ext (by match c with | ⟨0, _⟩ => rfl | ⟨1, _⟩ => rfl | ⟨2, _⟩ => rfl)

/-- The index a sum over the middle axis of an `[8, 3, 128]` block inserts. -/
private theorem lift_y (b : Fin 8) (l : Fin 128) (d : Fin 3) :
    reduces_S8x3x128_S8x128.lift (ix2 b l) d = ix3 b d l :=
  funext fun c => Fin.ext (by match c with | ⟨0, _⟩ => rfl | ⟨1, _⟩ => rfl | ⟨2, _⟩ => rfl)

/-- The squared norm of sample point `(b, n)`: the sum over the three coordinates. -/
private theorem sqx_apply (x : FVec Ideal S8x2048x3 .f32) (b : Fin 8) (n : Fin 2048)
    (hφ : FKind.Formats .f32) (hacc : (0x00000000#32 : BitVec 32) = FKind.add.neutral .f32 hφ) :
    multiReduction (F := Ideal) .add [2] S8x2048 (mulf x x) 0x00000000#32 reduces_S8x2048x3_S8x2048 hφ hacc (ix2 b n)
      = ∑ d : Fin 3, x (ix3 b n d) * x (ix3 b n d) := by
  refine (Ideal.multiReduction_add_single (mulf x x) 0x00000000#32 reduces_S8x2048x3_S8x2048 hφ hacc (ix2 b n)).trans ?_
  exact Finset.sum_congr rfl fun d _ => congrArg (fun t => x t * x t) (lift_x b n d)

/-- The squared norm of reference point `(b, l)` of the tile: the sum over the three coordinate rows. -/
private theorem sqy_apply (y : FVec Ideal S8x3x128 .f32) (b : Fin 8) (l : Fin 128)
    (hφ : FKind.Formats .f32) (hacc : (0x00000000#32 : BitVec 32) = FKind.add.neutral .f32 hφ) :
    multiReduction (F := Ideal) .add [1] S8x128
        (mulf (shapeCast S8x3x128 y shapeCasts_S8x3x128_S8x3x128) (shapeCast S8x3x128 y shapeCasts_S8x3x128_S8x3x128))
        0x00000000#32 reduces_S8x3x128_S8x128 hφ hacc (ix2 b l)
      = ∑ d : Fin 3, y (ix3 b d l) * y (ix3 b d l) := by
  rw [shapeCast_self y shapeCasts_S8x3x128_S8x3x128]
  refine (Ideal.multiReduction_add_single (mulf y y) 0x00000000#32 reduces_S8x3x128_S8x128 hφ hacc (ix2 b l)).trans ?_
  exact Finset.sum_congr rfl fun d _ => congrArg (fun t => y t * y t) (lift_y b l d)

/-- Coordinate `o` of the sample points, spread along the tile's reference points. -/
private theorem xcoord_apply {α : Type} (x : S8x2048x3.Idx → α) (o : ℕ) (ho : o < 3)
    (hs : S8x2048x3.Slices ![0, 0, o] S8x2048x1) (b : Fin 8) (n : Fin 2048) (l : Fin 128) :
    broadcastTo S8x2048x128 (extractStridedSlice S8x2048x1 ![0, 0, o] x hs) broadcasts_S8x2048x1_S8x2048x128 (ix3 b n l)
      = x (ix3 b n ⟨o, ho⟩) := by
  refine (Cert.LibKeepdims.broadcastTo_ab1_abc_apply _ broadcasts_S8x2048x1_S8x2048x128 b n l).trans ?_
  refine extractStridedSlice_apply ![0, 0, o] x hs (ix3 b n (0 : Fin 1)) (ix3 b n ⟨o, ho⟩) fun a => ?_
  match a with
  | ⟨0, _⟩ => exact (Nat.zero_add _).symm
  | ⟨1, _⟩ => exact (Nat.zero_add _).symm
  | ⟨2, _⟩ => rfl

/-- Coordinate row `o` of the tile's reference points, spread along the sample points (the block is first cast to its
    own shape, which changes nothing). -/
private theorem ycoord_apply {α : Type} (y : S8x3x128.Idx → α) (o : ℕ) (ho : o < 3)
    (hs : S8x3x128.Slices ![0, o, 0] S8x1x128) (b : Fin 8) (n : Fin 2048) (l : Fin 128) :
    broadcastTo S8x2048x128 (extractStridedSlice S8x1x128 ![0, o, 0] (shapeCast S8x3x128 y shapeCasts_S8x3x128_S8x3x128) hs)
        broadcasts_S8x1x128_S8x2048x128 (ix3 b n l)
      = y (ix3 b ⟨o, ho⟩ l) := by
  rw [shapeCast_self y shapeCasts_S8x3x128_S8x3x128]
  refine (broadcastTo_a1c_abc_apply _ broadcasts_S8x1x128_S8x2048x128 b n l).trans ?_
  refine extractStridedSlice_apply ![0, o, 0] y hs (ix3 b (0 : Fin 1) l) (ix3 b ⟨o, ho⟩ l) fun a => ?_
  match a with
  | ⟨0, _⟩ => exact (Nat.zero_add _).symm
  | ⟨1, _⟩ => rfl
  | ⟨2, _⟩ => exact (Nat.zero_add _).symm

/-- The squared distance with its inner product written as the body adds it: `(x₀·y₀ + x₁·y₁) + x₂·y₂`. -/
private theorem tdist_eq (x : Vec Ideal S8x2048x3 .f32) (y : Vec Ideal S8x3x128 .f32) (b : Fin 8) (n : Fin 2048) (l : Fin 128) :
    tdist x y b n l
      = max (((∑ d : Fin 3, x (ix3 b n d) * x (ix3 b n d)) + (∑ d : Fin 3, y (ix3 b d l) * y (ix3 b d l)))
          - Chamfer.two * ((x (ix3 b n (0 : Fin 3)) * y (ix3 b (0 : Fin 3) l) + x (ix3 b n (1 : Fin 3)) * y (ix3 b (1 : Fin 3) l))
              + x (ix3 b n (2 : Fin 3)) * y (ix3 b (2 : Fin 3) l))) Chamfer.zero := by
  unfold tdist
  rw [Fin.sum_univ_three (fun d : Fin 3 => x (ix3 b n d) * y (ix3 b d l))]

/-- The distance tile at `(b, n, l)`. -/
theorem tile_apply (x : Vec Ideal S8x2048x3 .f32) (y : Vec Ideal S8x3x128 .f32) (b : Fin 8) (n : Fin 2048) (l : Fin 128) :
    k0_pay4 (F := Ideal) x y (ix3 b n l) = tdist x y b n l := by
  refine Eq.trans ?_ (tdist_eq x y b n l).symm
  unfold k0_pay4
  refine (maximumf_apply _ _ _).trans (congrArg₂ max ?_ rfl)
  refine (subf_apply _ _ _).trans (congrArg₂ (fun p q : EReal => p - q) ?_ ?_)
  · -- |x|² + |y|²
    refine (addf_apply _ _ _).trans (congrArg₂ (fun p q : EReal => p + q) ?_ ?_)
    · exact (Cert.LibKeepdims.keptColumn_apply _ shapeCasts_S8x2048_S8x2048x1 broadcasts_S8x2048x1_S8x2048x128 b n l).trans
        (sqx_apply x b n _ _)
    · exact (keptRow_apply _ shapeCasts_S8x128_S8x1x128 broadcasts_S8x1x128_S8x2048x128 b n l).trans
        (sqy_apply y b l _ _)
  · -- 2·(x·y)
    refine (mulf_apply _ _ _).trans (congrArg₂ (fun p q : EReal => p * q) rfl ?_)
    refine (addf_apply _ _ _).trans (congrArg₂ (fun p q : EReal => p + q) ?_ ?_)
    · refine (addf_apply _ _ _).trans (congrArg₂ (fun p q : EReal => p + q) ?_ ?_)
      · exact (mulf_apply _ _ _).trans (congrArg₂ (fun p q : EReal => p * q)
          (xcoord_apply x 0 (by decide) _ b n l) (ycoord_apply y 0 (by decide) _ b n l))
      · exact (mulf_apply _ _ _).trans (congrArg₂ (fun p q : EReal => p * q)
          (xcoord_apply x 1 (by decide) _ b n l) (ycoord_apply y 1 (by decide) _ b n l))
    · exact (mulf_apply _ _ _).trans (congrArg₂ (fun p q : EReal => p * q)
        (xcoord_apply x 2 (by decide) _ b n l) (ycoord_apply y 2 (by decide) _ b n l))

/-- The index a minimum over the last axis of the `[8, 2048, 128]` tile inserts. -/
private theorem lift_lane (b : Fin 8) (n : Fin 2048) (l : Fin 128) :
    reduces_S8x2048x128_S8x2048.lift (ix2 b n) l = ix3 b n l :=
  funext fun c => Fin.ext (by match c with | ⟨0, _⟩ => rfl | ⟨1, _⟩ => rfl | ⟨2, _⟩ => rfl)

/-- The index a minimum over the middle axis of the `[8, 2048, 128]` tile inserts. -/
private theorem lift_point (b : Fin 8) (l : Fin 128) (n : Fin 2048) :
    reduces_S8x2048x128_S8x128.lift (ix2 b l) n = ix3 b n l :=
  funext fun c => Fin.ext (by match c with | ⟨0, _⟩ => rfl | ⟨1, _⟩ => rfl | ⟨2, _⟩ => rfl)

/-- The fold into the running minimum at `(b, n)`: the least of what was held and the tile's 128 distances. -/
theorem fold_apply (x : Vec Ideal S8x2048x3 .f32) (y : Vec Ideal S8x3x128 .f32) (xs : Vec Ideal S8x2048 .f32) (b : Fin 8) (n : Fin 2048) :
    k0_pay1 (F := Ideal) (k0_pay5 (F := Ideal) x y xs) (ix2 b n) = min (xs (ix2 b n)) (⨅ l : Fin 128, tdist x y b n l) := by
  unfold k0_pay1
  refine (congrFun (shapeCast_self _ shapeCasts_S8x2048_S8x2048) (ix2 b n)).trans ?_
  unfold k0_pay5
  refine (minimumf_apply _ _ _).trans (congrArg₂ min rfl ?_)
  refine (SqrtMin.multiReduction_minimumf_single (k0_pay4 (F := Ideal) x y) reduces_S8x2048x128_S8x2048 _ _ (ix2 b n)).trans ?_
  exact iInf_congr fun l => (congrArg (k0_pay4 (F := Ideal) x y) (lift_lane b n l)).trans (tile_apply x y b n l)

/-- The column output at `(b, l)`: the least distance over all sample points. -/
theorem cols_apply (x : Vec Ideal S8x2048x3 .f32) (y : Vec Ideal S8x3x128 .f32) (b : Fin 8) (l : Fin 128) :
    k0_pay2 (F := Ideal) (k0_pay4 (F := Ideal) x y) (ix2 b l) = ⨅ n : Fin 2048, tdist x y b n l := by
  unfold k0_pay2
  refine (SqrtMin.multiReduction_minimumf_single (k0_pay4 (F := Ideal) x y) reduces_S8x2048x128_S8x128 _ _ (ix2 b l)).trans ?_
  exact iInf_congr fun n => (congrArg (k0_pay4 (F := Ideal) x y) (lift_point b l n)).trans (tile_apply x y b n l)

/-- The reset value is `⊤` everywhere. -/
theorem reset_apply (j : S8x2048.Idx) : k0_pay3 (F := Ideal) j = ⊤ := by
  unfold k0_pay3
  refine (congrFun (shapeCast_self _ shapeCasts_S8x2048_S8x2048) j).trans ?_
  exact SqrtMin.ofBits_inf_f32

end Cert.KernelIdeal.KValue

end
-- ==== Proof.Blocks.lean ====
/-
  The two input blocks of a grid point, read at an index of the argument arrays.

  Grid point `t` works on batch group `t / 64` (8 batches) and reference tile `t % 64` (128 reference points). Its first
  block is the group's 8 × 2048 sample points; its second is the tile of the TRANSPOSED reference array (coordinates
  before points), which the host transposes from the reference argument before the kernel runs. So the distance the
  body computes between sample point `(b, n)` and tile column `l` is the distance between sample point
  `(8·(t/64) + b, n)` and reference point `(8·(t/64) + b, 128·(t%64) + l)` of the arguments.
-/
import proofs.«179977_j28621662060808_1_alg».proof.Proof.Gen.KernelIdeal.Frame
import proofs.«179977_j28621662060808_1_alg».proof.Proof.Payload
import Idealize.ShloMosaic.Lib.Pipeline.Value
import Idealize.ShloMosaic.Lib.StableHlo.Run
import Idealize.ShloMosaic.Lib.Tactic

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The sample points and the reference points as launched. -/
abbrev Xs (c : Dev nD) : Chamfer.SX.Idx → EReal := m ((c : Thread nD τ).loc main_arg1)
abbrev Ys (c : Dev nD) : Chamfer.SY.Idx → EReal := m ((c : Thread nD τ).loc main_arg0)

/-- The grid has 128 points: batch group `t / 64` is below 2, so a batch of the group is below 16. -/
theorem batch_lt (n : ℕ) (h : n < cfg0.N) (b : Fin 8) : 8 * (n / 64) + b.val < 16 := by
  have hN : cfg0.N = 128 := N_0
  have := b.isLt
  omega
/-- Reference point `l` of tile `n % 64` is below 8192. -/
theorem refpt_lt (n : ℕ) (l : Fin 128) : 128 * (n % 64) + l.val < 8192 := by
  have := l.isLt
  have := Nat.mod_lt n (by decide : 0 < 64)
  omega

/-- The batch that row `b` of grid point `n`'s blocks belongs to. -/
abbrev batchOf (n : ℕ) (h : n < cfg0.N) (b : Fin 8) : Fin 16 := ⟨8 * (n / 64) + b.val, batch_lt n h b⟩
/-- The reference point that column `l` of grid point `n`'s tile is. -/
abbrev refOf (n : ℕ) (l : Fin 128) : Fin 8192 := ⟨128 * (n % 64) + l.val, refpt_lt n l⟩

/-- Where the two input windows' blocks start, decided over the grid. -/
private theorem idx_facts : ∀ t : Fin cfg0.N,
    win0_0.index t (0 : Fin 3) = t.val / 64 ∧ win0_0.index t (1 : Fin 3) = 0 ∧ win0_0.index t (2 : Fin 3) = 0
    ∧ win0_1.index t (0 : Fin 3) = t.val / 64 ∧ win0_1.index t (1 : Fin 3) = 0 ∧ win0_1.index t (2 : Fin 3) = t.val % 64 :=
  (by decide +kernel : ∀ t : Fin grid0.N,
    win0_0.index t (0 : Fin 3) = t.val / 64 ∧ win0_0.index t (1 : Fin 3) = 0 ∧ win0_0.index t (2 : Fin 3) = 0
    ∧ win0_1.index t (0 : Fin 3) = t.val / 64 ∧ win0_1.index t (1 : Fin 3) = 0 ∧ win0_1.index t (2 : Fin 3) = t.val % 64)

/-- The sample block of a grid point is the group's rows of the sample argument. -/
theorem sample_block_apply (c : Dev nD) (t : Fin cfg0.N) (b : Fin 8) (n : Fin 2048) (d : Fin 3) :
    (iblk m c 0 t : Vec Ideal S8x2048x3 .f32) (ix3 b n d) = Xs m c (ix3 (batchOf t.val t.isLt b) n d) := by
  have hi := idx_facts t
  unfold iblk
  rw [View.read_apply]
  show V m c main_arg1 (((cfg0.win 0).blk t).view.emb (ix3 b n d)) = m ((c : Thread nD τ).loc main_arg1) (ix3 (batchOf t.val t.isLt b) n d)
  rw [V_main_arg1]
  congr 1
  funext a
  apply Fin.ext
  match a with
  | ⟨0, _⟩ => show win0_0.index t 0 * 8 + 1 * b.val = 8 * (t.val / 64) + b.val; rw [hi.1]; omega
  | ⟨1, _⟩ => show win0_0.index t 1 * 2048 + 1 * n.val = n.val; rw [hi.2.1]; omega
  | ⟨2, _⟩ => show win0_0.index t 2 * 3 + 1 * d.val = d.val; rw [hi.2.2.1]; omega

/-- What the region finds in the transposed reference array: the host's transpose of the reference argument. -/
private theorem V_main_v0 (c : Dev nD) :
    (V m c main_v0 : S16x3x8192.Idx → EReal)
      = transpose S16x3x8192 [0, 2, 1] (m ((c : Thread nD τ).loc main_arg0)) transposes_S16x8192x3_S16x3x8192_0_2_1 := by
  show StableHlo.after hostOps0 (fun b => m (c, b)) (Proc.devRef .tc main_v0) = _
  after_results

/-- The reference tile of a grid point is, transposed, the tile's points of the reference argument. -/
theorem ref_block_apply (c : Dev nD) (t : Fin cfg0.N) (b : Fin 8) (d : Fin 3) (l : Fin 128) :
    (iblk m c 1 t : Vec Ideal S8x3x128 .f32) (ix3 b d l) = Ys m c (ix3 (batchOf t.val t.isLt b) (refOf t.val l) d) := by
  have hi := idx_facts t
  unfold iblk
  rw [View.read_apply]
  show V m c main_v0 (((cfg0.win 1).blk t).view.emb (ix3 b d l)) = m ((c : Thread nD τ).loc main_arg0) (ix3 (batchOf t.val t.isLt b) (refOf t.val l) d)
  rw [V_main_v0]
  refine transpose_apply _ _ _ _ _ ?_
  intro a
  match a with
  | ⟨0, _⟩ => show 8 * (t.val / 64) + b.val = win0_1.index t 0 * 8 + 1 * b.val; rw [hi.2.2.2.1]; omega
  | ⟨1, _⟩ => show d.val = win0_1.index t 1 * 3 + 1 * d.val; rw [hi.2.2.2.2.1]; omega
  | ⟨2, _⟩ => show 128 * (t.val % 64) + l.val = win0_1.index t 2 * 128 + 1 * l.val; rw [hi.2.2.2.2.2]; omega

/-- So the body's tile distance at a grid point is the arguments' squared distance. -/
theorem tdist_blocks (c : Dev nD) (t : Fin cfg0.N) (b : Fin 8) (n : Fin 2048) (l : Fin 128) :
    tdist (iblk m c 0 t) (iblk m c 1 t) b n l
      = Chamfer.dist (Xs m c) (Ys m c) (batchOf t.val t.isLt b) n (refOf t.val l) := by
  unfold tdist Chamfer.dist Chamfer.sqX Chamfer.sqY Chamfer.dot
  simp only [sample_block_apply, ref_block_apply]

end Cert.KernelIdeal.KValue

end
-- ==== Proof.Pieces.lean ====
/-
  What one run of the kernel body leaves behind, as values.

  The body keeps a running minimum in a scratch buffer. At the first tile of a batch group it resets the scratch to the
  top value and then folds the tile in; at every other tile it folds the tile into what the scratch held. Each run also
  writes, for the 128 reference points of the tile, the least distance over all sample points; and the run at the last
  tile copies the scratch to the per-sample output. Stated for any float instance.
-/
import proofs.«179977_j28621662060808_1_alg».proof.Proof.Gen.KernelIdeal.Frame
import Idealize.ShloMosaic.Lib.Pipeline.Value
import Idealize.ShloMosaic.Lib.Tactic

noncomputable section

namespace Cert.KernelIdeal.KValue

open Idealize.ShloMosaic Idealize.ShloMosaic.TcCoe Idealize.SL.Sem
open Cert.KernelIdeal Cert.KernelIdeal.Gen

variable {F : FTy → Type} [FloatOps F]

/-- The zero offsets of a rank-2 whole-block access, as the constant function. -/
private theorem hz2 : (![0, 0] : Fin 2 → Nat) = fun _ => 0 := funext fun a => by fin_cases a <;> rfl

/-- The zero offsets of a rank-3 whole-block access, as the constant function. -/
private theorem hz3 : (![0, 0, 0] : Fin 3 → Nat) = fun _ => 0 := funext fun a => by fin_cases a <;> rfl

/-- First tile: the scratch ends at the tile folded into the reset value. -/
theorem scratch_first (c : Dev nD) (i : grid0.Coords) (a2 : Memref sig .tc .vmem S8x2048x3 .f32) (h2 : a2.IsWhole) (a3 : Memref sig .tc .vmem S8x3x128 .f32) (h3 : a3.IsWhole) (a4 : Memref sig .tc .vmem S8x2048 .f32) (h4 : a4.IsWhole) (a5 : Memref sig .tc .vmem S8x128 .f32) (h5 : a5.IsWhole) (a6 : Memref sig .tc .vmem S8x2048 .f32) (h6 : a6.IsWhole) (hc0 : cond0_0 i) (hc1 : ¬cond0_1 i)
    (x0 : Vec F S8x2048x3 .f32) (x1 : Vec F S8x3x128 .f32) :
    sout0_A_0 c i a2 h2 a3 h3 a4 h4 a5 h5 a6 h6 hc0 hc1 x0 x1 = k0_pay1 (k0_pay5 x0 x1 (k0_pay3 (F := F))) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  -- two whole-block stores: the later one is what remains, and the load between them reads the reset value back
  rw [View.canon_cons_unit_zero (S := S8x2048) hz2, View.readCov_unit_zero (S := S8x2048) _ hz2]
  simp only [View.readAt_eq_ld, h2.read_unread, h3.read_unread, h6.read_unread,
    View.ld_unit_zero (S := S8x2048x3) hz3, View.ld_unit_zero (S := S8x3x128) hz3, View.ld_unit_zero (S := S8x2048) hz2]

/-- A middle tile: the scratch ends at the tile folded into what it held. -/
theorem scratch_mid (c : Dev nD) (i : grid0.Coords) (a2 : Memref sig .tc .vmem S8x2048x3 .f32) (h2 : a2.IsWhole) (a3 : Memref sig .tc .vmem S8x3x128 .f32) (h3 : a3.IsWhole) (a4 : Memref sig .tc .vmem S8x2048 .f32) (h4 : a4.IsWhole) (a5 : Memref sig .tc .vmem S8x128 .f32) (h5 : a5.IsWhole) (a6 : Memref sig .tc .vmem S8x2048 .f32) (h6 : a6.IsWhole) (hc0 : ¬cond0_0 i) (hc1 : ¬cond0_1 i)
    (x0 : Vec F S8x2048x3 .f32) (x1 : Vec F S8x3x128 .f32) (xs0 : Vec F S8x2048 .f32) :
    sout0_B_0 c i a2 h2 a3 h3 a4 h4 a5 h5 a6 h6 hc0 hc1 x0 x1 xs0 = k0_pay1 (k0_pay5 x0 x1 xs0) := by
  unfold sout0_B_0
  rw [View.read_writes_eq_canon _ _ _ (scover0_B_0 c i a2 h2 a3 h3 a4 h4 a5 h5 a6 h6 hc0 hc1 x0 x1 xs0)]
  unfold kernelRun0_B
  dsimp only
  sl_unfold_words
  rw [View.canon_unit_zero hz2]
  simp only [View.readAt_eq_ld, h2.read_unread, h3.read_unread, h6.read_unread,
    View.ld_unit_zero (S := S8x2048x3) hz3, View.ld_unit_zero (S := S8x3x128) hz3, View.ld_unit_zero (S := S8x2048) hz2]

/-- The last tile: the same fold. -/
theorem scratch_last (c : Dev nD) (i : grid0.Coords) (a2 : Memref sig .tc .vmem S8x2048x3 .f32) (h2 : a2.IsWhole) (a3 : Memref sig .tc .vmem S8x3x128 .f32) (h3 : a3.IsWhole) (a4 : Memref sig .tc .vmem S8x2048 .f32) (h4 : a4.IsWhole) (a5 : Memref sig .tc .vmem S8x128 .f32) (h5 : a5.IsWhole) (a6 : Memref sig .tc .vmem S8x2048 .f32) (h6 : a6.IsWhole) (hc0 : ¬cond0_0 i) (hc1 : cond0_1 i)
    (x0 : Vec F S8x2048x3 .f32) (x1 : Vec F S8x3x128 .f32) (xs0 : Vec F S8x2048 .f32) :
    sout0_C_0 c i a2 h2 a3 h3 a4 h4 a5 h5 a6 h6 hc0 hc1 x0 x1 xs0 = k0_pay1 (k0_pay5 x0 x1 xs0) := by
  unfold sout0_C_0
  rw [View.read_writes_eq_canon _ _ _ (scover0_C_0 c i a2 h2 a3 h3 a4 h4 a5 h5 a6 h6 hc0 hc1 x0 x1 xs0)]
  unfold kernelRun0_C
  dsimp only
  sl_unfold_words
  rw [View.canon_unit_zero hz2]
  simp only [View.readAt_eq_ld, h2.read_unread, h3.read_unread, h6.read_unread,
    View.ld_unit_zero (S := S8x2048x3) hz3, View.ld_unit_zero (S := S8x3x128) hz3, View.ld_unit_zero (S := S8x2048) hz2]

/-- The per-reference-point output of a first tile: the tile's column minima. -/
theorem cols_first (c : Dev nD) (i : grid0.Coords) (a2 : Memref sig .tc .vmem S8x2048x3 .f32) (h2 : a2.IsWhole) (a3 : Memref sig .tc .vmem S8x3x128 .f32) (h3 : a3.IsWhole) (a4 : Memref sig .tc .vmem S8x2048 .f32) (h4 : a4.IsWhole) (a5 : Memref sig .tc .vmem S8x128 .f32) (h5 : a5.IsWhole) (a6 : Memref sig .tc .vmem S8x2048 .f32) (h6 : a6.IsWhole) (hc0 : cond0_0 i) (hc1 : ¬cond0_1 i)
    (x0 : Vec F S8x2048x3 .f32) (x1 : Vec F S8x3x128 .f32) :
    out0_A_3 c i a2 h2 a3 h3 a4 h4 a5 h5 a6 h6 hc0 hc1 x0 x1 = k0_pay2 (k0_pay4 x0 x1) := by
  unfold out0_A_3
  rw [View.read_writes_eq_canon _ _ _ (cover0_A_3 c i a2 h2 a3 h3 a4 h4 a5 h5 a6 h6 hc0 hc1 x0 x1)]
  unfold kernelRun0_A
  dsimp only
  sl_unfold_words
  rw [View.canon_unit_zero hz2]
  simp only [View.readAt_eq_ld, h2.read_unread, h3.read_unread, h6.read_unread,
    View.ld_unit_zero (S := S8x2048x3) hz3, View.ld_unit_zero (S := S8x3x128) hz3, View.ld_unit_zero (S := S8x2048) hz2]

/-- The same at a middle tile. -/
theorem cols_mid (c : Dev nD) (i : grid0.Coords) (a2 : Memref sig .tc .vmem S8x2048x3 .f32) (h2 : a2.IsWhole) (a3 : Memref sig .tc .vmem S8x3x128 .f32) (h3 : a3.IsWhole) (a4 : Memref sig .tc .vmem S8x2048 .f32) (h4 : a4.IsWhole) (a5 : Memref sig .tc .vmem S8x128 .f32) (h5 : a5.IsWhole) (a6 : Memref sig .tc .vmem S8x2048 .f32) (h6 : a6.IsWhole) (hc0 : ¬cond0_0 i) (hc1 : ¬cond0_1 i)
    (x0 : Vec F S8x2048x3 .f32) (x1 : Vec F S8x3x128 .f32) (xs0 : Vec F S8x2048 .f32) :
    out0_B_3 c i a2 h2 a3 h3 a4 h4 a5 h5 a6 h6 hc0 hc1 x0 x1 xs0 = k0_pay2 (k0_pay4 x0 x1) := by
  unfold out0_B_3
  rw [View.read_writes_eq_canon _ _ _ (cover0_B_3 c i a2 h2 a3 h3 a4 h4 a5 h5 a6 h6 hc0 hc1 x0 x1 xs0)]
  unfold kernelRun0_B
  dsimp only
  sl_unfold_words
  rw [View.canon_unit_zero hz2]
  simp only [View.readAt_eq_ld, h2.read_unread, h3.read_unread, h6.read_unread,
    View.ld_unit_zero (S := S8x2048x3) hz3, View.ld_unit_zero (S := S8x3x128) hz3, View.ld_unit_zero (S := S8x2048) hz2]

/-- The same at the last tile. -/
theorem cols_last (c : Dev nD) (i : grid0.Coords) (a2 : Memref sig .tc .vmem S8x2048x3 .f32) (h2 : a2.IsWhole) (a3 : Memref sig .tc .vmem S8x3x128 .f32) (h3 : a3.IsWhole) (a4 : Memref sig .tc .vmem S8x2048 .f32) (h4 : a4.IsWhole) (a5 : Memref sig .tc .vmem S8x128 .f32) (h5 : a5.IsWhole) (a6 : Memref sig .tc .vmem S8x2048 .f32) (h6 : a6.IsWhole) (hc0 : ¬cond0_0 i) (hc1 : cond0_1 i)
    (x0 : Vec F S8x2048x3 .f32) (x1 : Vec F S8x3x128 .f32) (xs0 : Vec F S8x2048 .f32) :
    out0_C_3 c i a2 h2 a3 h3 a4 h4 a5 h5 a6 h6 hc0 hc1 x0 x1 xs0 = k0_pay2 (k0_pay4 x0 x1) := by
  unfold out0_C_3
  rw [View.read_writes_eq_canon _ _ _ (cover0_C_3 c i a2 h2 a3 h3 a4 h4 a5 h5 a6 h6 hc0 hc1 x0 x1 xs0)]
  unfold kernelRun0_C
  dsimp only
  sl_unfold_words
  rw [View.canon_unit_zero hz2]
  simp only [View.readAt_eq_ld, h2.read_unread, h3.read_unread, h6.read_unread,
    View.ld_unit_zero (S := S8x2048x3) hz3, View.ld_unit_zero (S := S8x3x128) hz3, View.ld_unit_zero (S := S8x2048) hz2]

/-- The per-sample output, written at the last tile only: the scratch as that run leaves it. -/
theorem rows_last (c : Dev nD) (i : grid0.Coords) (a2 : Memref sig .tc .vmem S8x2048x3 .f32) (h2 : a2.IsWhole) (a3 : Memref sig .tc .vmem S8x3x128 .f32) (h3 : a3.IsWhole) (a4 : Memref sig .tc .vmem S8x2048 .f32) (h4 : a4.IsWhole) (a5 : Memref sig .tc .vmem S8x128 .f32) (h5 : a5.IsWhole) (a6 : Memref sig .tc .vmem S8x2048 .f32) (h6 : a6.IsWhole) (hc0 : ¬cond0_0 i) (hc1 : cond0_1 i)
    (x0 : Vec F S8x2048x3 .f32) (x1 : Vec F S8x3x128 .f32) (xs0 : Vec F S8x2048 .f32) :
    out0_C_2 c i a2 h2 a3 h3 a4 h4 a5 h5 a6 h6 hc0 hc1 x0 x1 xs0 = k0_pay1 (k0_pay5 x0 x1 xs0) := by
  unfold out0_C_2
  rw [View.read_writes_eq_canon _ _ _ (cover0_C_2 c i a2 h2 a3 h3 a4 h4 a5 h5 a6 h6 hc0 hc1 x0 x1 xs0)]
  unfold kernelRun0_C
  dsimp only
  sl_unfold_words
  rw [View.canon_unit_zero hz2]
  -- the stored value is a whole-block load of the scratch made after the fold was stored there: it reads the fold back
  simp only [View.readCov_unit_zero (S := S8x2048) _ hz2, View.readAt_eq_ld, h2.read_unread, h3.read_unread, h6.read_unread,
    View.ld_unit_zero (S := S8x2048x3) hz3, View.ld_unit_zero (S := S8x3x128) hz3, View.ld_unit_zero (S := S8x2048) hz2]

end Cert.KernelIdeal.KValue

end
-- ==== Proof.Invariant.lean ====
/-
  What the kernel's buffers hold after each grid point.

  The grid runs batch group `n / 64` over its 64 reference tiles `n % 64` in order. By induction on the point:
  the carried scratch holds, for row `b` and sample point `r`, the least squared distance to the reference points of the
  tiles seen so far in this group — the reset to `⊤` at the group's first tile is the empty minimum, and each tile folds in
  its 128 distances (`Chamfer.run1_succ`). The per-reference-point output of a point is the tile's block of `near2`
  (each column's minimum is over all 2048 sample points, present at every point). At a group's last tile the running
  minimum has seen all 8192 reference points and is copied out: the group's block of `near1`.
-/
import proofs.«179977_j28621662060808_1_alg».proof.Proof.Blocks
import proofs.«179977_j28621662060808_1_alg».proof.Proof.Pieces

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The two input blocks of a grid point, at their literal shapes. -/
abbrev sblk (c : Dev nD) (t : Fin cfg0.N) : Vec Ideal S8x2048x3 .f32 := iblk m c 0 t
abbrev rblk (c : Dev nD) (t : Fin cfg0.N) : Vec Ideal S8x3x128 .f32 := iblk m c 1 t

/-- A tile's 128 distances from sample point `(b, r)`, least: over the arguments' reference points of that tile. -/
theorem tile_inf (c : Dev nD) (t : Fin cfg0.N) (b : Fin 8) (r : Fin 2048) :
    (⨅ l : Fin 128, tdist (sblk m c t) (rblk m c t) b r l)
      = ⨅ l : Fin 128, Chamfer.dist (Xs m c) (Ys m c) (batchOf t.val t.isLt b) r (refOf t.val l) :=
  iInf_congr fun l => tdist_blocks m c t b r l

/-- Folding point `t`'s tile into a buffer that holds the running minimum over the group's earlier tiles gives the running
    minimum over one tile more. -/
theorem fold_tile (c : Dev nD) (t : Fin cfg0.N) (xs : Vec Ideal S8x2048 .f32) (b : Fin 8) (r : Fin 2048)
    (hxs : xs (ix2 b r) = Chamfer.run1 (Xs m c) (Ys m c) (batchOf t.val t.isLt b) r (t.val % 64)) :
    k0_pay1 (F := Ideal) (k0_pay5 (F := Ideal) (sblk m c t) (rblk m c t) xs) (ix2 b r)
      = Chamfer.run1 (Xs m c) (Ys m c) (batchOf t.val t.isLt b) r (t.val % 64 + 1) := by
  refine (fold_apply (sblk m c t) (rblk m c t) xs b r).trans ?_
  rw [hxs, tile_inf, Chamfer.run1_succ _ _ _ _ (t.val % 64) (Nat.mod_lt _ (by decide))]

/-- THE SCRATCH after point `n`: the running minimum over the group's first `n % 64 + 1` tiles. -/
theorem scratch_after (c : Dev nD) : ∀ (n : ℕ) (h : n < cfg0.N) (b : Fin 8) (r : Fin 2048),
    (outsAt0 m c n h).2.2 (ix2 b r) = Chamfer.run1 (Xs m c) (Ys m c) (batchOf n h b) r (n % 64 + 1) := by
  intro n
  induction n using Nat.strong_induction_on with
  | _ n ih =>
    intro h b r
    have hN : cfg0.N = 128 := N_0
    by_cases h0 : n % 64 = 0
    · -- a group's first tile: the reset value is the empty minimum
      have h1 : ¬n % 64 = 63 := by omega
      rw [outsAt0_A m c ⟨n, h⟩ h0 h1]
      dsimp only
      refine (congrFun (scratch_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _)
        ((hcond0_0 ⟨n, h⟩).mpr h0) (fun hh => h1 ((hcond0_1 ⟨n, h⟩).mp hh)) (sblk m c ⟨n, h⟩) (rblk m c ⟨n, h⟩)) (ix2 b r)).trans ?_
      refine fold_tile m c ⟨n, h⟩ (k0_pay3 (F := Ideal)) b r ?_
      rw [reset_apply]
      show (⊤ : EReal) = Chamfer.run1 (Xs m c) (Ys m c) (batchOf n h b) r (n % 64)
      rw [h0, Chamfer.run1_zero]
    · -- a later tile: what the point before left, one tile more
      have hn : n ≠ 0 := fun hz => h0 (by rw [hz])
      have hprev : n - 1 < cfg0.N := by omega
      have hfold : ∀ xs : Vec Ideal S8x2048 .f32, xs = (outsAt0 m c (n - 1) hprev).2.2 →
          k0_pay1 (F := Ideal) (k0_pay5 (F := Ideal) (sblk m c ⟨n, h⟩) (rblk m c ⟨n, h⟩) xs) (ix2 b r)
            = Chamfer.run1 (Xs m c) (Ys m c) (batchOf n h b) r (n % 64 + 1) := by
        intro xs hxs
        refine fold_tile m c ⟨n, h⟩ xs b r ?_
        rw [hxs, ih (n - 1) (by omega) hprev b r]
        have e1 : batchOf (n - 1) hprev b = batchOf n h b := Fin.ext (by
          show 8 * ((n - 1) / 64) + b.val = 8 * (n / 64) + b.val
          omega)
        have e2 : (n - 1) % 64 + 1 = n % 64 := by omega
        rw [e1, e2]
      by_cases h1 : n % 64 = 63
      · rw [outsAt0_C m c ⟨n, h⟩ h0 h1]
        dsimp only
        refine (congrFun (scratch_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _)
          (fun hh => h0 ((hcond0_0 ⟨n, h⟩).mp hh)) ((hcond0_1 ⟨n, h⟩).mpr h1) (sblk m c ⟨n, h⟩) (rblk m c ⟨n, h⟩)
          (outsAt0 m c (n - 1) hprev).2.2) (ix2 b r)).trans ?_
        exact hfold _ rfl
      · rw [outsAt0_B m c ⟨n, h⟩ h0 h1]
        dsimp only
        refine (congrFun (scratch_mid (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _)
          (fun hh => h0 ((hcond0_0 ⟨n, h⟩).mp hh)) (fun hh => h1 ((hcond0_1 ⟨n, h⟩).mp hh)) (sblk m c ⟨n, h⟩) (rblk m c ⟨n, h⟩)
          (outsAt0 m c (n - 1) hprev).2.2) (ix2 b r)).trans ?_
        exact hfold _ rfl

/-- A tile's column minima are the tile's block of `near2`: every column sees all 2048 sample points. -/
theorem cols_value (c : Dev nD) (t : Fin cfg0.N) (b : Fin 8) (l : Fin 128) :
    k0_pay2 (F := Ideal) (k0_pay4 (F := Ideal) (sblk m c t) (rblk m c t)) (ix2 b l)
      = Chamfer.near2 (Xs m c) (Ys m c) (ix2 (batchOf t.val t.isLt b) (refOf t.val l)) := by
  refine (cols_apply (sblk m c t) (rblk m c t) b l).trans ?_
  exact iInf_congr fun n' => tdist_blocks m c t b n' l

/-- THE PER-REFERENCE-POINT OUTPUT after point `n`: the point's block of `near2`. -/
theorem cols_after (c : Dev nD) (n : ℕ) (h : n < cfg0.N) (b : Fin 8) (l : Fin 128) :
    (outsAt0 m c n h).2.1 (ix2 b l) = Chamfer.near2 (Xs m c) (Ys m c) (ix2 (batchOf n h b) (refOf n l)) := by
  have hN : cfg0.N = 128 := N_0
  by_cases h0 : n % 64 = 0
  · have h1 : ¬n % 64 = 63 := by omega
    rw [outsAt0_A m c ⟨n, h⟩ h0 h1]
    dsimp only
    refine (congrFun (cols_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _)
      ((hcond0_0 ⟨n, h⟩).mpr h0) (fun hh => h1 ((hcond0_1 ⟨n, h⟩).mp hh)) (sblk m c ⟨n, h⟩) (rblk m c ⟨n, h⟩)) (ix2 b l)).trans ?_
    exact cols_value m c ⟨n, h⟩ b l
  · have hprev : n - 1 < cfg0.N := by omega
    by_cases h1 : n % 64 = 63
    · rw [outsAt0_C m c ⟨n, h⟩ h0 h1]
      dsimp only
      refine (congrFun (cols_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _)
        (fun hh => h0 ((hcond0_0 ⟨n, h⟩).mp hh)) ((hcond0_1 ⟨n, h⟩).mpr h1) (sblk m c ⟨n, h⟩) (rblk m c ⟨n, h⟩)
        (outsAt0 m c (n - 1) hprev).2.2) (ix2 b l)).trans ?_
      exact cols_value m c ⟨n, h⟩ b l
    · rw [outsAt0_B m c ⟨n, h⟩ h0 h1]
      dsimp only
      refine (congrFun (cols_mid (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _)
        (fun hh => h0 ((hcond0_0 ⟨n, h⟩).mp hh)) (fun hh => h1 ((hcond0_1 ⟨n, h⟩).mp hh)) (sblk m c ⟨n, h⟩) (rblk m c ⟨n, h⟩)
        (outsAt0 m c (n - 1) hprev).2.2) (ix2 b l)).trans ?_
      exact cols_value m c ⟨n, h⟩ b l

/-- THE PER-SAMPLE OUTPUT after a group's last tile: the group's block of `near1`. -/
theorem rows_after (c : Dev nD) (n : ℕ) (h : n < cfg0.N) (h1 : n % 64 = 63) (b : Fin 8) (r : Fin 2048) :
    (outsAt0 m c n h).1 (ix2 b r) = Chamfer.near1 (Xs m c) (Ys m c) (ix2 (batchOf n h b) r) := by
  have hN : cfg0.N = 128 := N_0
  have h0 : ¬n % 64 = 0 := by omega
  have hprev : n - 1 < cfg0.N := by omega
  rw [outsAt0_C m c ⟨n, h⟩ h0 h1]
  dsimp only
  refine (congrFun (rows_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _)
    (fun hh => h0 ((hcond0_0 ⟨n, h⟩).mp hh)) ((hcond0_1 ⟨n, h⟩).mpr h1) (sblk m c ⟨n, h⟩) (rblk m c ⟨n, h⟩)
    (outsAt0 m c (n - 1) hprev).2.2) (ix2 b r)).trans ?_
  -- the copied value is the scratch as this run leaves it: the running minimum over all 64 tiles
  refine (fold_tile m c ⟨n, h⟩ (outsAt0 m c (n - 1) hprev).2.2 b r ?_).trans ?_
  · rw [scratch_after m c (n - 1) hprev b r]
    have e1 : batchOf (n - 1) hprev b = batchOf n h b := Fin.ext (by
      show 8 * ((n - 1) / 64) + b.val = 8 * (n / 64) + b.val
      omega)
    have e2 : (n - 1) % 64 + 1 = n % 64 := by omega
    rw [e1, e2]
  · show Chamfer.run1 (Xs m c) (Ys m c) (batchOf n h b) r (n % 64 + 1) = _
    rw [h1]
    exact Chamfer.run1_all (Xs m c) (Ys m c) (ix2 (batchOf n h b) r)

end Cert.KernelIdeal.KValue

end
-- ==== Proof.Arrays.lean ====
/-
  The two output arrays after the kernel's run.

  The per-reference-point output is written back at every grid point: point `t` writes the 8 × 128 block at block index
  `(t / 64, t % 64)`, and these 128 blocks tile the 16 × 8192 array. The per-sample output is written back only at a
  batch group's last tile (`t % 64 = 63`): the 8 × 2048 block at block index `(t / 64, 0)`; the two of them tile the
  16 × 2048 array. Each written block is the corresponding block of `near2` / `near1` of the arguments, so the arrays
  end holding those functions.
-/
import proofs.«179977_j28621662060808_1_alg».proof.Proof.Invariant
import Idealize.ShloMosaic.Lib.Pipeline.Value

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- Where the two output windows' blocks start, decided over the grid: the per-reference-point output's block of point
    `t` is block `(t / 64, t % 64)`, the per-sample output's is block `(t / 64, 0)`. -/
private theorem out_starts : ∀ t : Fin cfg0.N,
    win0_3.index t (0 : Fin 2) = t.val / 64 ∧ win0_3.index t (1 : Fin 2) = t.val % 64
    ∧ win0_2.index t (0 : Fin 2) = t.val / 64 ∧ win0_2.index t (1 : Fin 2) = 0 :=
  (by decide +kernel : ∀ t : Fin grid0.N,
    win0_3.index t (0 : Fin 2) = t.val / 64 ∧ win0_3.index t (1 : Fin 2) = t.val % 64
    ∧ win0_2.index t (0 : Fin 2) = t.val / 64 ∧ win0_2.index t (1 : Fin 2) = 0)

/-! ## The per-reference-point output -/

/-- What a point leaves in the per-reference-point output's buffer, at any index of the block. -/
private theorem cols_after_at (c : Dev nD) (n : ℕ) (h : n < cfg0.N) (j : S8x128.Idx) :
    (outsAt0 m c n h).2.1 j = Chamfer.near2 (Xs m c) (Ys m c) (ix2 (batchOf n h (j 0)) (refOf n (j 1))) :=
  (congrArg (outsAt0 m c n h).2.1 (eq_ix2 j)).trans (cols_after m c n h (j 0) (j 1))

/-- What point `t` writes back to the per-reference-point output is its block of `near2`. -/
private theorem cols_flushed (c : Dev nD) (t : Fin cfg0.N) :
    (dats m 0 c).flushed 3 t = ((cfg0.win 3).blk t).view.read (Elt Ideal)
      (Chamfer.near2 (Xs m c) (Ys m c) : Buf (Elt Ideal) ((c : Thread nD τ).loc main_v1_1)) := by
  have hi := out_starts t
  show (cfg0.win 3).cut (grid0.coords t) ((dats m 0 c).after 3 t) = _
  rw [after0_3]
  funext j
  rw [View.read_apply]
  refine (cols_after_at m c t.val t.isLt j).trans ?_
  show Chamfer.near2 (Xs m c) (Ys m c) (ix2 (batchOf t.val t.isLt (j 0)) (refOf t.val (j 1)))
    = Chamfer.near2 (Xs m c) (Ys m c) (((cfg0.win 3).blk t).view.emb j)
  refine congrArg (Chamfer.near2 (Xs m c) (Ys m c)) ?_
  funext a
  apply Fin.ext
  match a with
  | ⟨0, _⟩ => show 8 * (t.val / 64) + (j 0).val = win0_3.index t 0 * 8 + 1 * (j 0).val; rw [hi.1]; omega
  | ⟨1, _⟩ => show 128 * (t.val % 64) + (j 1).val = win0_3.index t 1 * 128 + 1 * (j 1).val; rw [hi.2.1]; omega

/-- An index of the 16 × 8192 array is in point `t`'s block iff each coordinate is in the block's range on its axis. -/
private theorem mem_cols_blk (t : Fin cfg0.N) (i : S16x8192.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v1_1).slice (win0_3.rect t)).set ↔ _
  rw [View.set_slice_whole, Rect.mem_set_unit]
  exact Iff.rfl

/-- The 128 blocks tile the array: index `(p, k)` lies in the block of point `64 · (p / 8) + k / 128`, which writes back
    (every point does). -/
private theorem cols_cover (i : S16x8192.Idx) :
    ∃ t : Fin cfg0.N, (cfg0.win 3).flush t = true ∧ i ∈ ((cfg0.win 3).blk t).view.set := by
  have hN : cfg0.N = 128 := N_0
  have hi0 : (i 0).val < 16 := idx2_lt0 i
  have hi1 : (i 1).val < 8192 := idx2_lt1 i
  have hlt : 64 * ((i 0).val / 8) + (i 1).val / 128 < cfg0.N := by omega
  have e0 : win0_3.index ⟨_, hlt⟩ (0 : Fin 2) = (64 * ((i 0).val / 8) + (i 1).val / 128) / 64 := (out_starts ⟨_, hlt⟩).1
  have e1 : win0_3.index ⟨_, hlt⟩ (1 : Fin 2) = (64 * ((i 0).val / 8) + (i 1).val / 128) % 64 := (out_starts ⟨_, hlt⟩).2.1
  refine ⟨⟨_, hlt⟩, flush0_3 _, ?_⟩
  rw [mem_cols_blk]
  intro a
  match a with
  | ⟨0, _⟩ =>
    show win0_3.index ⟨_, hlt⟩ (0 : Fin 2) * 8 ≤ (i 0).val ∧ (i 0).val < win0_3.index ⟨_, hlt⟩ (0 : Fin 2) * 8 + 8
    rw [e0]; omega
  | ⟨1, _⟩ =>
    show win0_3.index ⟨_, hlt⟩ (1 : Fin 2) * 128 ≤ (i 1).val ∧ (i 1).val < win0_3.index ⟨_, hlt⟩ (1 : Fin 2) * 128 + 128
    rw [e1]; omega

/-! ## The per-sample output -/

/-- What a group's last tile leaves in the per-sample output's buffer, at any index of the block. -/
private theorem rows_after_at (c : Dev nD) (n : ℕ) (h : n < cfg0.N) (h1 : n % 64 = 63) (j : S8x2048.Idx) :
    (outsAt0 m c n h).1 j = Chamfer.near1 (Xs m c) (Ys m c) (ix2 (batchOf n h (j 0)) (j 1)) :=
  (congrArg (outsAt0 m c n h).1 (eq_ix2 j)).trans (rows_after m c n h h1 (j 0) (j 1))

/-- What a writing point (a group's last tile) writes back to the per-sample output is its block of `near1`. -/
private theorem rows_flushed (c : Dev nD) (t : Fin cfg0.N) (hf : (cfg0.win 2).flush t = true) :
    (dats m 0 c).flushed 2 t = ((cfg0.win 2).blk t).view.read (Elt Ideal)
      (Chamfer.near1 (Xs m c) (Ys m c) : Buf (Elt Ideal) ((c : Thread nD τ).loc main_v1_0)) := by
  have hi := out_starts t
  have h1 : t.val % 64 = 63 := (flush0_2 t).mp hf
  show (cfg0.win 2).cut (grid0.coords t) ((dats m 0 c).after 2 t) = _
  rw [after0_2]
  funext j
  rw [View.read_apply]
  refine (rows_after_at m c t.val t.isLt h1 j).trans ?_
  show Chamfer.near1 (Xs m c) (Ys m c) (ix2 (batchOf t.val t.isLt (j 0)) (j 1))
    = Chamfer.near1 (Xs m c) (Ys m c) (((cfg0.win 2).blk t).view.emb j)
  refine congrArg (Chamfer.near1 (Xs m c) (Ys m c)) ?_
  funext a
  apply Fin.ext
  match a with
  | ⟨0, _⟩ => show 8 * (t.val / 64) + (j 0).val = win0_2.index t 0 * 8 + 1 * (j 0).val; rw [hi.2.2.1]; omega
  | ⟨1, _⟩ => show (j 1).val = win0_2.index t 1 * 2048 + 1 * (j 1).val; rw [hi.2.2.2]; omega

/-- An index of the 16 × 2048 array is in point `t`'s block iff each coordinate is in the block's range on its axis. -/
private theorem mem_rows_blk (t : Fin cfg0.N) (i : S16x2048.Idx) :
    i ∈ ((cfg0.win 2).blk t).view.set ↔ ∀ a : Fin 2, win0_2.index t a * S8x2048.size a ≤ (i a).val
      ∧ (i a).val < win0_2.index t a * S8x2048.size a + S8x2048.size a := by
  show i ∈ ((View.whole main_v1_0).slice (win0_2.rect t)).set ↔ _
  rw [View.set_slice_whole, Rect.mem_set_unit]
  exact Iff.rfl

/-- The two written blocks tile the array: index `(p, r)` lies in the block of the last tile of group `p / 8`, point
    `64 · (p / 8) + 63`, which writes back. -/
private theorem rows_cover (i : S16x2048.Idx) :
    ∃ t : Fin cfg0.N, (cfg0.win 2).flush t = true ∧ i ∈ ((cfg0.win 2).blk t).view.set := by
  have hN : cfg0.N = 128 := N_0
  have hi0 : (i 0).val < 16 := idx2_lt0 i
  have hi1 : (i 1).val < 2048 := idx2_lt1 i
  have hlt : 64 * ((i 0).val / 8) + 63 < cfg0.N := by omega
  have e0 : win0_2.index ⟨_, hlt⟩ (0 : Fin 2) = (64 * ((i 0).val / 8) + 63) / 64 := (out_starts ⟨_, hlt⟩).2.2.1
  have e1 : win0_2.index ⟨_, hlt⟩ (1 : Fin 2) = 0 := (out_starts ⟨_, hlt⟩).2.2.2
  refine ⟨⟨_, hlt⟩, (flush0_2 _).mpr (by show (64 * ((i 0).val / 8) + 63) % 64 = 63; omega), ?_⟩
  rw [mem_rows_blk]
  intro a
  match a with
  | ⟨0, _⟩ =>
    show win0_2.index ⟨_, hlt⟩ (0 : Fin 2) * 8 ≤ (i 0).val ∧ (i 0).val < win0_2.index ⟨_, hlt⟩ (0 : Fin 2) * 8 + 8
    rw [e0]; omega
  | ⟨1, _⟩ =>
    show win0_2.index ⟨_, hlt⟩ (1 : Fin 2) * 2048 ≤ (i 1).val ∧ (i 1).val < win0_2.index ⟨_, hlt⟩ (1 : Fin 2) * 2048 + 2048
    rw [e1]; omega

/-! ## The arrays after the run -/

/-- The per-sample output array ends at `near1` of the arguments. -/
theorem rows_final (c : Dev nD) :
    (dats m 0 c).arrAt 2 cfg0.N = (Chamfer.near1 (Xs m c) (Ys m c) : Buf (Elt Ideal) ((c : Thread nD τ).loc main_v1_0)) :=
  (dats m 0 c).arrAt_eq_of_cover 2 _ (rows_flushed m c) rows_cover

/-- The per-reference-point output array ends at `near2` of the arguments. -/
theorem cols_final (c : Dev nD) :
    (dats m 0 c).arrAt 3 cfg0.N = (Chamfer.near2 (Xs m c) (Ys m c) : Buf (Elt Ideal) ((c : Thread nD τ).loc main_v1_1)) :=
  (dats m 0 c).arrAt_eq_of_cover 3 _ (fun t _ => cols_flushed m c t) cols_cover

end Cert.KernelIdeal.KValue

end
-- ==== Proof.Tail.lean ====
/-
  The two results as functions of the two arrays of nearest squared distances.

  Both programs end the same way: from `p1` (one value per sample point) and `p2` (one per reference point) the first
  result is `(mean √p1 + mean √p2) / 2` per batch and the second `mean p1 + mean p2`, a mean being the row sum from
  zero divided by the row's length (2048 and 8192) as the host divides. They are kept as two definitions that nothing
  opens: the certificate only needs that equal arrays give equal results.
-/
import proofs.«179977_j28621662060808_1_alg».proof.Proof.Spec
import Idealize.ShloMosaic.PureOps
import Idealize.ShloMosaic.PureOps.Ideal

noncomputable section

namespace Chamfer

open Idealize.ShloMosaic

/-- One value per batch. -/
abbrev S16 : Shape := ⟨1, ![16]⟩
/-- A scalar. -/
abbrev Sc : Shape := ⟨0, ![]⟩

/-- `(mean √p1 + mean √p2) / 2`, per batch. -/
def meanRoot (h1 : S1.ReducesTo [1] S16) (h2 : S2.ReducesTo [1] S16) (hb : Sc.BroadcastsInDim S16 (![] : Fin 0 → Fin S16.rank))
    (hS : 0 < Sc.numel) (p1 : FVec Ideal S1 .f32) (p2 : FVec Ideal S2 .f32) : FVec Ideal S16 .f32 :=
  Host.divf (F := Ideal)
    (addf (F := Ideal)
      (Host.divf (F := Ideal) (Host.reduceAdd (F := Ideal) (Host.sqrt (F := Ideal) p1) (constant (F := Ideal) Sc .f32 0x00000000#32) h1 hS)
        (broadcastInDim S16 ![] hb (constant (F := Ideal) Sc .f32 0x45000000#32)))
      (Host.divf (F := Ideal) (Host.reduceAdd (F := Ideal) (Host.sqrt (F := Ideal) p2) (constant (F := Ideal) Sc .f32 0x00000000#32) h2 hS)
        (broadcastInDim S16 ![] hb (constant (F := Ideal) Sc .f32 0x46000000#32))))
    (broadcastInDim S16 ![] hb (constant (F := Ideal) Sc .f32 0x40000000#32))

/-- `mean p1 + mean p2`, per batch. -/
def meanSq (h1 : S1.ReducesTo [1] S16) (h2 : S2.ReducesTo [1] S16) (hb : Sc.BroadcastsInDim S16 (![] : Fin 0 → Fin S16.rank))
    (hS : 0 < Sc.numel) (p1 : FVec Ideal S1 .f32) (p2 : FVec Ideal S2 .f32) : FVec Ideal S16 .f32 :=
  addf (F := Ideal)
    (Host.divf (F := Ideal) (Host.reduceAdd (F := Ideal) p1 (constant (F := Ideal) Sc .f32 0x00000000#32) h1 hS)
      (broadcastInDim S16 ![] hb (constant (F := Ideal) Sc .f32 0x45000000#32)))
    (Host.divf (F := Ideal) (Host.reduceAdd (F := Ideal) p2 (constant (F := Ideal) Sc .f32 0x00000000#32) h2 hS)
      (broadcastInDim S16 ![] hb (constant (F := Ideal) Sc .f32 0x46000000#32)))

end Chamfer

end
-- ==== Proof.KernelRun.lean ====
/-
  The kernel program's run, with its two results named.

  After the kernel region the host takes square roots and row means of the two output arrays. With the arrays at
  `near1` and `near2` of the arguments, the results are `Chamfer.meanRoot` and `Chamfer.meanSq` of those.
-/
import proofs.«179977_j28621662060808_1_alg».proof.Proof.Arrays
import proofs.«179977_j28621662060808_1_alg».proof.Proof.Tail
import Idealize.ShloMosaic.Lib.StableHlo.Run

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The first result: half the sum of the two mean root distances. -/
abbrev res1 (c : Dev nD) : Buf (Elt Ideal) ((c : Thread nD τ).loc main_v12) :=
  Chamfer.meanRoot reducesTo_S16x2048_S16_d1 reducesTo_S16x8192_S16_d1 bcast_S_S16 h_S_ (Chamfer.near1 (Xs m c) (Ys m c)) (Chamfer.near2 (Xs m c) (Ys m c))
/-- The second result: the sum of the two mean squared distances. -/
abbrev res2 (c : Dev nD) : Buf (Elt Ideal) ((c : Thread nD τ).loc main_v19) :=
  Chamfer.meanSq reducesTo_S16x2048_S16_d1 reducesTo_S16x8192_S16_d1 bcast_S_S16 h_S_ (Chamfer.near1 (Xs m c) (Ys m c)) (Chamfer.near2 (Xs m c) (Ys m c))

/-- The host operations after the region read the per-sample output array where the region left it: at `near1`. -/
theorem rows_read (c : Dev nD) :
    Pipeline.withArrays spec0 c (V0 m c) (fun w => (dats m 0 c).arrAt w cfg0.N) (Proc.devRef .tc main_v1_0)
      = (Chamfer.near1 (Xs m c) (Ys m c) : Buf (Elt Ideal) ((c : Thread nD τ).loc main_v1_0)) :=
  (Pipeline.withArrays_arr spec0 launch0.win.arr_inj c _ _ 2).trans (rows_final m c)

/-- And the per-reference-point output array at `near2`. -/
theorem cols_read (c : Dev nD) :
    Pipeline.withArrays spec0 c (V0 m c) (fun w => (dats m 0 c).arrAt w cfg0.N) (Proc.devRef .tc main_v1_1)
      = (Chamfer.near2 (Xs m c) (Ys m c) : Buf (Elt Ideal) ((c : Thread nD τ).loc main_v1_1)) :=
  (Pipeline.withArrays_arr spec0 launch0.win.arr_inj c _ _ 3).trans (cols_final m c)

/-- The first result after the host tail. -/
theorem tail_res1 (c : Dev nD) : Pipeline.afterTail₀ cfgs (dats m) 0 (V0 m) [hostOps1] c main_v12 = res1 m c := by
  unfold Pipeline.afterTail₀
  show StableHlo.after hostOps1 _ (Proc.devRef .tc main_v12) = _
  after_results
  rw [rows_read, cols_read]
  rfl

/-- The second result after the host tail. -/
theorem tail_res2 (c : Dev nD) : Pipeline.afterTail₀ cfgs (dats m) 0 (V0 m) [hostOps1] c main_v19 = res2 m c := by
  unfold Pipeline.afterTail₀
  show StableHlo.after hostOps1 _ (Proc.devRef .tc main_v19) = _
  after_results
  rw [rows_read, cols_read]
  rfl

/-- Every weakly fair execution terminates with the two results at those values and the arguments unchanged. -/
theorem run : θ_run defs (onTc (τ := τ) (main (F := Ideal))) ⟨m, fun _ => 0, ρ⟩ fun r => ∀ c : Dev nD,
      r.2.mem ((c.tc : Thread nD τ).loc main_v12) = res1 m c
      ∧ r.2.mem ((c.tc : Thread nD τ).loc main_v19) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v12 (Pipeline.mem_restRefs_of main_v12 (by decide) (by decide))).trans (tail_res1 m c),
     ((h c).2 main_v19 (Pipeline.mem_restRefs_of main_v19 (by decide) (by decide))).trans (tail_res2 m c),
     ((h c).2 main_arg0 (Pipeline.mem_restRefs_of main_arg0 (by decide) (by decide))).trans (W_main_arg0 m (dats m) c),
     ((h c).1 0).trans (((dats m 0 c).arrAt_in 0 rfl _).trans ((A_eq m c 0).trans (V_main_arg1 m c)))⟩)
    (run_main m ρ)

end Cert.KernelIdeal.KValue

end
-- ==== Proof.RefSide.lean ====
/-
  The reference program's two minima are the specification's.

  The reference forms the whole 16 × 2048 × 8192 array of floored squared distances, `|x|² + |y|² - 2·(x·y)` with the inner
  product as one contraction over the three coordinates, and reduces it by minimum from `+∞` once over the reference
  points and once over the sample points.
-/
import proofs.«179977_j28621662060808_1_alg».proof.Proof.Gen.ReferenceIdeal.Read
import proofs.«179977_j28621662060808_1_alg».proof.Proof.Spec
import proofs.«179977_j28621662060808_1_alg».proof.Proof.LibSqrtMin
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read

/-- The squared norm of a sample point is read, through the two broadcasts, at the point's own coordinates. -/
private theorem idx_sqX (b : Fin 16) (n : Fin 2048) (k : Fin 8192) (d : Fin 3) :
    idx_main_v1 (idx_main_v5 (idx_main_v7 (ix3 b n k))) d = ix3 b n d :=
  funext fun a => Fin.ext (by match a with | ⟨0, _⟩ => rfl | ⟨1, _⟩ => rfl | ⟨2, _⟩ => rfl)

/-- The squared norm of a reference point is read, through the two broadcasts, at the point's own coordinates. -/
private theorem idx_sqY (b : Fin 16) (n : Fin 2048) (k : Fin 8192) (d : Fin 3) :
    idx_main_v3 (idx_main_v6 (idx_main_v8 (ix3 b n k))) d = ix3 b k d :=
  funext fun a => Fin.ext (by match a with | ⟨0, _⟩ => rfl | ⟨1, _⟩ => rfl | ⟨2, _⟩ => rfl)

/-- The contraction's left operand is read at the sample point, -/
private theorem idx_dotX (b : Fin 16) (n : Fin 2048) (k : Fin 8192) (d : Fin 3) :
    lidx_main_v4 (ix3 b n k) d = ix3 b n d :=
  funext fun a => Fin.ext (by match a with | ⟨0, _⟩ => rfl | ⟨1, _⟩ => rfl | ⟨2, _⟩ => rfl)

/-- and its right operand at the reference point. -/
private theorem idx_dotY (b : Fin 16) (n : Fin 2048) (k : Fin 8192) (d : Fin 3) :
    ridx_main_v4 (ix3 b n k) d = ix3 b k d :=
  funext fun a => Fin.ext (by match a with | ⟨0, _⟩ => rfl | ⟨1, _⟩ => rfl | ⟨2, _⟩ => rfl)

/-- The array of floored squared distances at `(b, n, k)`. -/
theorem dists_apply (Y : Chamfer.SY.Idx → EReal) (X : Chamfer.SX.Idx → EReal) (b : Fin 16) (n : Fin 2048) (k : Fin 8192) :
    val_main_v14 (F := Ideal) Y X (ix3 b n k) = Chamfer.dist X Y b n k := by
  simp only [val_main_v14_apply, val_main_v12_apply, val_main_v9_apply, val_main_v7_apply, val_main_v5_apply, val_main_v1_apply,
    val_main_v0_apply, val_main_v8_apply, val_main_v6_apply, val_main_v3_apply, val_main_v2_apply, val_main_v11_apply,
    val_main_v10_apply, val_main_v4_apply, val_main_v13_apply, val_main_cst_apply, val_main_cst_0_apply, val_main_cst_1_apply,
    val_main_cst_2_apply, Ideal.addf_def, Ideal.subf_def, Ideal.mulf_def, Ideal.maximumf_def, Ideal.ofBits_def,
    Ideal.ofBits_zero_f32, zero_add, idx_sqX, idx_sqY, idx_dotX, idx_dotY]
  unfold Chamfer.dist Chamfer.sqX Chamfer.sqY Chamfer.dot Chamfer.zero Chamfer.two
  rw [Ideal.ofBits_zero_f32]

/-- Its minimum over the reference points. -/
theorem rows_eq (Y : Chamfer.SY.Idx → EReal) (X : Chamfer.SX.Idx → EReal) :
    val_main_v15 (F := Ideal) Y X = Chamfer.near1 X Y := by
  funext i
  unfold val_main_v15
  have h : S16x2048x8192.Reduces [2] S16x2048 := by decide
  rw [SqrtMin.hostReduce_minimumf_single (val_main_v14 (F := Ideal) Y X) (val_main_cst_3 (F := Ideal))
    reducesTo_S16x2048x8192_S16x2048_d2 h h_S_ ((val_main_cst_3_apply (F := Ideal) _).trans SqrtMin.ofBits_inf_f32) i]
  unfold Chamfer.near1
  refine iInf_congr fun k => ?_
  have e : h.lift i k = ix3 (i 0) (i 1) k :=
    funext fun a => Fin.ext (by match a with | ⟨0, _⟩ => rfl | ⟨1, _⟩ => rfl | ⟨2, _⟩ => rfl)
  rw [e]
  exact dists_apply Y X (i 0) (i 1) k

/-- Its minimum over the sample points. -/
theorem cols_eq (Y : Chamfer.SY.Idx → EReal) (X : Chamfer.SX.Idx → EReal) :
    val_main_v16 (F := Ideal) Y X = Chamfer.near2 X Y := by
  funext i
  unfold val_main_v16
  have h : S16x2048x8192.Reduces [1] S16x8192 := by decide
  rw [SqrtMin.hostReduce_minimumf_single (val_main_v14 (F := Ideal) Y X) (val_main_cst_4 (F := Ideal))
    reducesTo_S16x2048x8192_S16x8192_d1 h h_S_ ((val_main_cst_4_apply (F := Ideal) _).trans SqrtMin.ofBits_inf_f32) i]
  unfold Chamfer.near2
  refine iInf_congr fun n => ?_
  have e : h.lift i n = ix3 (i 0) n (i 1) :=
    funext fun a => Fin.ext (by match a with | ⟨0, _⟩ => rfl | ⟨1, _⟩ => rfl | ⟨2, _⟩ => rfl)
  rw [e]
  exact dists_apply Y X (i 0) n (i 1)

end Cert.ReferenceIdeal.RefValue

end
-- ==== Proof.RefRun.lean ====
/-
  The reference program's run, with its two results named.

  Its two minimum-reductions are `near1` and `near2` of the arguments; the operations after them are the same square
  roots and row means as the kernel program's, so the results are `Chamfer.meanRoot` and `Chamfer.meanSq` of those.
-/
import proofs.«179977_j28621662060808_1_alg».proof.Proof.RefSide
import proofs.«179977_j28621662060808_1_alg».proof.Proof.Tail

noncomputable section

namespace Cert.ReferenceIdeal.RefValue

open Idealize.ShloMosaic Idealize.ShloMosaic.TcCoe Idealize.ShloMosaic.ValueIdx Idealize.SL.Sem
open Cert.ReferenceIdeal Cert.ReferenceIdeal.Gen

variable (m : (ℓ : Loc nD τ sig) → Buf (Elt Ideal) ℓ) (ρ : Dev nD → PrngReg)

/-- The sample points and the reference points as launched. -/
abbrev Xs (c : Dev nD) : Chamfer.SX.Idx → EReal := m ((c.tc : Thread nD τ).loc main_arg1)
abbrev Ys (c : Dev nD) : Chamfer.SY.Idx → EReal := m ((c.tc : Thread nD τ).loc main_arg0)

/-- The first result. -/
abbrev res1 (c : Dev nD) : Buf (Elt Ideal) ((c.tc : Thread nD τ).loc main_v27) :=
  Chamfer.meanRoot reducesTo_S16x2048_S16_d1 reducesTo_S16x8192_S16_d1 bcast_S_S16 h_S_ (Chamfer.near1 (Xs m c) (Ys m c)) (Chamfer.near2 (Xs m c) (Ys m c))
/-- The second result. -/
abbrev res2 (c : Dev nD) : Buf (Elt Ideal) ((c.tc : Thread nD τ).loc main_v34) :=
  Chamfer.meanSq reducesTo_S16x2048_S16_d1 reducesTo_S16x8192_S16_d1 bcast_S_S16 h_S_ (Chamfer.near1 (Xs m c) (Ys m c)) (Chamfer.near2 (Xs m c) (Ys m c))

/-- The first result's operations after the two minima are `Chamfer.meanRoot` of the two minima. -/
private theorem tail_root (Y : Chamfer.SY.Idx → EReal) (X : Chamfer.SX.Idx → EReal) :
    Read.val_main_v27 (F := Ideal) Y X
      = Chamfer.meanRoot reducesTo_S16x2048_S16_d1 reducesTo_S16x8192_S16_d1 bcast_S_S16 h_S_
          (Read.val_main_v15 (F := Ideal) Y X) (Read.val_main_v16 (F := Ideal) Y X) := rfl

/-- The second result's operations after the two minima are `Chamfer.meanSq` of the two minima. -/
private theorem tail_sq (Y : Chamfer.SY.Idx → EReal) (X : Chamfer.SX.Idx → EReal) :
    Read.val_main_v34 (F := Ideal) Y X
      = Chamfer.meanSq reducesTo_S16x2048_S16_d1 reducesTo_S16x8192_S16_d1 bcast_S_S16 h_S_
          (Read.val_main_v15 (F := Ideal) Y X) (Read.val_main_v16 (F := Ideal) Y X) := rfl

/-- Every weakly fair execution terminates with the two results at those values and the arguments unchanged. -/
theorem run : θ_run defs (onTc (τ := τ) (main (F := Ideal))) ⟨m, fun _ => 0, ρ⟩ fun r => ∀ c : Dev nD,
      r.2.mem ((c.tc : Thread nD τ).loc main_v27) = res1 m c
      ∧ r.2.mem ((c.tc : Thread nD τ).loc main_v34) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2.1.trans ?_, (h c).2.2.1, (h c).2.2.2⟩)
    (Cert.ReferenceIdeal.Value.run (F := Ideal) m ρ)
  · refine (Read.val_main_v27_eq (F := Ideal) (Ys m c) (Xs m c)).trans ?_
    rw [tail_root, rows_eq, cols_eq]
  · refine (Read.val_main_v34_eq (F := Ideal) (Ys m c) (Xs m c)).trans ?_
    rw [tail_sq, rows_eq, cols_eq]

end Cert.ReferenceIdeal.RefValue

end
-- ==== Proof.lean ====
/-
  The pairwise nearest-neighbour (Chamfer) distance kernel against its jnp reference, over the extended reals.

  For 16 batches of 2048 sample points `X` and 8192 reference points `Y` in three coordinates, both programs form the
  squared distances `|x|² + |y|² - 2·(x·y)` floored at zero, take for every sample point the least over the reference
  points (`Chamfer.near1`) and for every reference point the least over the sample points (`Chamfer.near2`), and return
  per batch `(mean √near1 + mean √near2) / 2` and `mean near1 + mean near2`.

  The kernel walks a 2 × 64 grid: a group of 8 batches against one tile of 128 reference points at a time. Its inner
  product is three products added in order, which is the contraction's sum over the three coordinates; its squared
  norms are lane sums from zero, the reference's host sums from the zero word. The per-reference-point minima of a
  tile are complete at once (all sample points are present) and are written back at every point; the per-sample minima
  are carried in a scratch buffer, reset to `+∞` at a group's first tile — the empty minimum — and folded tile by tile,
  so after the 64th tile they are the minimum over all 8192 reference points, which is when they are written back
  (Proof/Invariant.lean, by induction on the grid point; Proof/Arrays.lean: the written blocks tile both arrays).
  The reference reduces the whole 16 × 2048 × 8192 array by minimum from `+∞` along each axis (Proof/RefSide.lean).
  No law beyond associativity of the three-term sum and the lattice laws of `min` joins the two sides, so finiteness
  of the inputs is never used. The operations after the minima are the same in both programs (Proof/Tail.lean).

  The three frames: the two kernel programs' are the generated ones; the reference's is its generated run with the
  results dropped. The ideal pass rewrote nothing, so `preserves` is trivial.
-/
import proofs.«179977_j28621662060808_1_alg».proof.Defs
import proofs.«179977_j28621662060808_1_alg».proof.Proof.Gen.Kernel
import proofs.«179977_j28621662060808_1_alg».proof.Proof.Gen.Kernel.Frame
import proofs.«179977_j28621662060808_1_alg».proof.Proof.Gen.KernelIdeal
import proofs.«179977_j28621662060808_1_alg».proof.Proof.Gen.KernelIdeal.Frame
import proofs.«179977_j28621662060808_1_alg».proof.Proof.Gen.ReferenceIdeal
import proofs.«179977_j28621662060808_1_alg».proof.Proof.Gen.ReferenceIdeal.Run
import proofs.«179977_j28621662060808_1_alg».proof.Proof.Gen.Pre_finite_inputs
import proofs.«179977_j28621662060808_1_alg».proof.Proof.KernelRun
import proofs.«179977_j28621662060808_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

theorem preserves : Cert.preserves_Kernel_KernelIdeal := trivial

/-- The first result depends on the arguments only through the two arrays of points: equal arrays, equal results (the
    two programs' shape facts are proofs of the same statements). -/
theorem meanRoot_congr (X X' : Chamfer.SX.Idx → EReal) (Y Y' : Chamfer.SY.Idx → EReal) (hX : X' = X) (hY : Y' = Y) :
    Chamfer.meanRoot Cert.ReferenceIdeal.Gen.reducesTo_S16x2048_S16_d1 Cert.ReferenceIdeal.Gen.reducesTo_S16x8192_S16_d1
        Cert.ReferenceIdeal.Gen.bcast_S_S16 Cert.ReferenceIdeal.Gen.h_S_ (Chamfer.near1 X' Y') (Chamfer.near2 X' Y')
      = Chamfer.meanRoot Cert.KernelIdeal.Gen.reducesTo_S16x2048_S16_d1 Cert.KernelIdeal.Gen.reducesTo_S16x8192_S16_d1
        Cert.KernelIdeal.Gen.bcast_S_S16 Cert.KernelIdeal.Gen.h_S_ (Chamfer.near1 X Y) (Chamfer.near2 X Y) := by
  subst hX; subst hY; rfl

/-- The same for the second result. -/
theorem meanSq_congr (X X' : Chamfer.SX.Idx → EReal) (Y Y' : Chamfer.SY.Idx → EReal) (hX : X' = X) (hY : Y' = Y) :
    Chamfer.meanSq Cert.ReferenceIdeal.Gen.reducesTo_S16x2048_S16_d1 Cert.ReferenceIdeal.Gen.reducesTo_S16x8192_S16_d1
        Cert.ReferenceIdeal.Gen.bcast_S_S16 Cert.ReferenceIdeal.Gen.h_S_ (Chamfer.near1 X' Y') (Chamfer.near2 X' Y')
      = Chamfer.meanSq Cert.KernelIdeal.Gen.reducesTo_S16x2048_S16_d1 Cert.KernelIdeal.Gen.reducesTo_S16x8192_S16_d1
        Cert.KernelIdeal.Gen.bcast_S_S16 Cert.KernelIdeal.Gen.h_S_ (Chamfer.near1 X Y) (Chamfer.near2 X Y) := by
  subst hX; subst hY; rfl

/-- Both programs end with their results at `meanRoot` and `meanSq` of `near1` and `near2` of the arguments; the arguments
    agree, so the results are equal. -/
theorem algebraic : Cert.algebraic_KernelIdeal_ReferenceIdeal := by
  intro m ρ m' ρ' _ hagree
  refine ⟨fun c => Cert.KernelIdeal.KValue.res1 m c, fun c => Cert.KernelIdeal.KValue.res2 m c,
    Cert.KernelIdeal.KValue.run m ρ, ?_⟩
  refine (θ_run Cert.ReferenceIdeal.defs _ _).mono
    (fun _ h c => ⟨(h c).1.trans ?_, (h c).2.1.trans ?_, (h c).2.2.1, (h c).2.2.2⟩)
    (Cert.ReferenceIdeal.RefValue.run m' ρ')
  · exact meanRoot_congr (Cert.KernelIdeal.KValue.Xs m c) (Cert.ReferenceIdeal.RefValue.Xs m' c)
      (Cert.KernelIdeal.KValue.Ys m c) (Cert.ReferenceIdeal.RefValue.Ys m' c) (hagree c).2 (hagree c).1
  · exact meanSq_congr (Cert.KernelIdeal.KValue.Xs m c) (Cert.ReferenceIdeal.RefValue.Xs m' c)
      (Cert.KernelIdeal.KValue.Ys m c) (Cert.ReferenceIdeal.RefValue.Ys m' c) (hagree c).2 (hagree c).1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
